-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x200x64x128 : Shape := ⟨4, ![32, 200, 64, 128]⟩
abbrev S128x128 : Shape := ⟨2, ![128, 128]⟩
abbrev S128 : Shape := ⟨1, ![128]⟩
abbrev S_ : Shape := ⟨0, ![]⟩

class Facts : Prop where
  bcast_S_S32x200x64x128 : S_.BroadcastsInDim S32x200x64x128 (![] : Fin 0 → Fin S32x200x64x128.rank)
  reducesTo_S32x200x64x128_S_d0_1_2_3 : S32x200x64x128.ReducesTo [0, 1, 2, 3] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S32x200x64x128 .f32) (main_arg1 : FVec F S128x128 .f32) (main_arg2 : FVec F S128 .f32) (main_arg3 : FVec F S128 .f32) (main_arg4 : FVec F S128 .f32) : IVec S_ 1 :=
  let main_v0 : FVec F S32x200x64x128 .f32 := Host.absf main_arg0
  let main_cst : FVec F S_ .f32 := constant S_ .f32 0x7F800000#32
  let main_v1 : FVec F S32x200x64x128 .f32 := broadcastInDim S32x200x64x128 ![] bcast_S_S32x200x64x128 main_cst
  let main_v2 : IVec S32x200x64x128 1 := cmpf .olt main_v0 main_v1
  let main_c : IVec S_ 1 := constantI S_ 1 1#1
  let main_v3 : IVec S_ 1 := (fun x v => Host.reduce IntOp.andi x v reducesTo_S32x200x64x128_S_d0_1_2_3 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S32x200x64x128 : Shape := ⟨4, ![32, 200, 64, 128]⟩
abbrev S128x128 : Shape := ⟨2, ![128, 128]⟩
abbrev S128 : Shape := ⟨1, ![128]⟩
abbrev S6400x64x128 : Shape := ⟨3, ![6400, 64, 128]⟩
abbrev S128x64x128 : Shape := ⟨3, ![128, 64, 128]⟩
abbrev S128x64 : Shape := ⟨2, ![128, 64]⟩
abbrev S128x64x1 : Shape := ⟨3, ![128, 64, 1]⟩
abbrev S128x64x64 : Shape := ⟨3, ![128, 64, 64]⟩
abbrev S8192x128 : Shape := ⟨2, ![8192, 128]⟩
abbrev S1x128 : Shape := ⟨2, ![1, 128]⟩
abbrev S1x1x128 : Shape := ⟨3, ![1, 1, 128]⟩

abbrev nBuf : Space → Nat
  | .hbm => 9
  | .vmem => 8
  | .smem => 0
  | _ => 0

abbrev bufTy : (tb : Table) → Fin (tcTables nBuf tb) → BufTy
  | .hbm, ⟨0, _⟩ => ⟨S32x200x64x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S6400x64x128, .f32⟩
  | .hbm, ⟨6, _⟩ => ⟨S128x128, .f32⟩
  | .hbm, ⟨7, _⟩ => ⟨S6400x64x128, .f32⟩
  | .hbm, ⟨8, _⟩ => ⟨S32x200x64x128, .f32⟩
  | .local _ .vmem, ⟨0, _⟩ => ⟨S128x64x128, .f32⟩
  | .local _ .vmem, ⟨1, _⟩ => ⟨S128x64x128, .f32⟩
  | .local _ .vmem, ⟨2, _⟩ => ⟨S128x128, .f32⟩
  | .local _ .vmem, ⟨3, _⟩ => ⟨S128, .f32⟩
  | .local _ .vmem, ⟨4, _⟩ => ⟨S128, .f32⟩
  | .local _ .vmem, ⟨5, _⟩ => ⟨S128, .f32⟩
  | .local _ .vmem, ⟨6, _⟩ => ⟨S128x64x128, .f32⟩
  | .local _ .vmem, ⟨7, _⟩ => ⟨S128x64x128, .f32⟩
  | _, _ => ⟨S32x200x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x200x64x128_S6400x64x128 : S32x200x64x128.ShapeCasts S6400x64x128
  transposes_S128x128_S128x128_1_0 : S128x128.Transposes [1, 0] S128x128
  inb_S128x64x128_S128x64x128_0_0_0 : ∀ a, (![0, 0, 0] : Fin 3 → Nat) a + S128x64x128.size a ≤ S128x64x128.size a
  h_S128x64x128 : 0 < S128x64x128.numel
  shapeCasts_S128x64x128_S128x64x128 : S128x64x128.ShapeCasts S128x64x128
  reduces_S128x64x128_S128x64 : S128x64x128.Reduces [2] S128x64
  shapeCasts_S128x64_S128x64x1 : S128x64.ShapeCasts S128x64x1
  broadcasts_S128x64x1_S128x64x128 : S128x64x1.Broadcasts S128x64x128
  reduces_S128x64x64_S128x64 : S128x64x64.Reduces [2] S128x64
  broadcasts_S128x64x1_S128x64x64 : S128x64x1.Broadcasts S128x64x64
  shapeCasts_S128x64x128_S8192x128 : S128x64x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  shapeCasts_S8192x128_S128x64x128 : S8192x128.ShapeCasts S128x64x128
  shapeCasts_S128_S1x1x128 : S128.ShapeCasts S1x1x128
  broadcasts_S1x1x128_S128x64x128 : S1x1x128.Broadcasts S128x64x128
  shapeCasts_S6400x64x128_S32x200x64x128 : S6400x64x128.ShapeCasts S32x200x64x128
  dot_S128x64x128_S128x64x128_S128x64x64_2_2_1_1_0_0_wf : DotDims.WF S128x64x128 S128x64x128 S128x64x64 [2] [2] [1] [1] [0] [0]
  dot_S8192x128_S128x128_S8192x128_1_0_0_1_n_n_wf : DotDims.WF S8192x128 S128x128 S8192x128 [1] [0] [0] [1] [] []
  dot_S128x64x64_S128x64x128_S128x64x128_2_1_1_2_0_0_wf : DotDims.WF S128x64x64 S128x64x128 S128x64x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x128.size a ≤ S6400x64x128.size a
  hwx0_0 : ∀ i : grid0.Coords, EltTy.bits .f32 = 32 ∨ (Rect.block (s := S6400x64x128) S128x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x64x128.size a ≤ S6400x64x128.size a
  hwx0_5 : ∀ i : grid0.Coords, EltTy.bits .f32 = 32 ∨ (Rect.block (s := S6400x64x128) S128x64x128.size (cc0_transform_5 i) (hinb0_5 i)).WholeWords (EltTy.packing .f32)

variable [Facts₀]

def dot_S128x64x128_S128x64x128_S128x64x64_2_2_1_1_0_0 : DotDims S128x64x128 S128x64x128 S128x64x64 where
  lhsContracting := [2]
  rhsContracting := [2]
  lhsNonContracting := [1]
  rhsNonContracting := [1]
  lhsBatch := [0]
  rhsBatch := [0]
  wf := dot_S128x64x128_S128x64x128_S128x64x64_2_2_1_1_0_0_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S128x64x64_S128x64x128_S128x64x128_2_1_1_2_0_0 : DotDims S128x64x64 S128x64x128 S128x64x128 where
  lhsContracting := [2]
  rhsContracting := [1]
  lhsNonContracting := [1]
  rhsNonContracting := [2]
  lhsBatch := [0]
  rhsBatch := [0]
  wf := dot_S128x64x64_S128x64x128_S128x64x128_2_1_1_2_0_0_wf

abbrev win0_0 : Pipeline.Window sig grid0 :=
  Pipeline.Window.ofSpec (Memref.whole main_v0) S128x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x64x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x200x64x128 : Shape := ⟨4, ![32, 200, 64, 128]⟩
abbrev S128x128 : Shape := ⟨2, ![128, 128]⟩
abbrev S128 : Shape := ⟨1, ![128]⟩
abbrev S_ : Shape := ⟨0, ![]⟩
abbrev S32x200x64 : Shape := ⟨3, ![32, 200, 64]⟩
abbrev S32x200x64x1 : Shape := ⟨4, ![32, 200, 64, 1]⟩
abbrev S32x200x64x64 : Shape := ⟨4, ![32, 200, 64, 64]⟩
abbrev S1x1x1x128 : Shape := ⟨4, ![1, 1, 1, 128]⟩

abbrev nBuf : Space → Nat
  | .hbm => 113
  | .vmem => 0
  | .smem => 0
  | _ => 0

abbrev bufTy : (tb : Table) → Fin (tcTables nBuf tb) → BufTy
  | .hbm, ⟨0, _⟩ => ⟨S32x200x64x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S32x200x64, .f32⟩
  | .hbm, ⟨7, _⟩ => ⟨S32x200x64x1, .f32⟩
  | .hbm, ⟨8, _⟩ => ⟨S_, .f32⟩
  | .hbm, ⟨9, _⟩ => ⟨S32x200x64x1, .f32⟩
  | .hbm, ⟨10, _⟩ => ⟨S32x200x64x1, .f32⟩
  | .hbm, ⟨11, _⟩ => ⟨S32x200x64x128, .f32⟩
  | .hbm, ⟨12, _⟩ => ⟨S32x200x64x128, .f32⟩
  | .hbm, ⟨13, _⟩ => ⟨S_, .i32⟩
  | .hbm, ⟨14, _⟩ => ⟨S_, .f32⟩
  | .hbm, ⟨15, _⟩ => ⟨S32x200x64, .f32⟩
  | .hbm, ⟨16, _⟩ => ⟨S32x200x64x1, .f32⟩
  | .hbm, ⟨17, _⟩ => ⟨S_, .f32⟩
  | .hbm, ⟨18, _⟩ => ⟨S32x200x64x1, .f32⟩
  | .hbm, ⟨19, _⟩ => ⟨S32x200x64x1, .f32⟩
  | .hbm, ⟨20, _⟩ => ⟨S32x200x64x128, .f32⟩
  | .hbm, ⟨21, _⟩ => ⟨S32x200x64x128, .f32⟩
  | .hbm, ⟨22, _⟩ => ⟨S32x200x64x128, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S32x200x64, .f32⟩
  | .hbm, ⟨28, _⟩ => ⟨S32x200x64x1, .f32⟩
  | .hbm, ⟨29, _⟩ => ⟨S32x200x64x1, .f32⟩
  | .hbm, ⟨30, _⟩ => ⟨S32x200x64x1, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S32x200x64x1, .f32⟩
  | .hbm, ⟨36, _⟩ => ⟨S32x200x64x1, .f32⟩
  | .hbm, ⟨37, _⟩ => ⟨S32x200x64x1, .f32⟩
  | .hbm, ⟨38, _⟩ => ⟨S_, .f32⟩
  | .hbm, ⟨39, _⟩ => ⟨S32x200x64x1, .f32⟩
  | .hbm, ⟨40, _⟩ => ⟨S32x200x64x1, .f32⟩
  | .hbm, ⟨41, _⟩ => ⟨S32x200x64x128, .f32⟩
  | .hbm, ⟨42, _⟩ => ⟨S32x200x64x128, .f32⟩
  | .hbm, ⟨43, _⟩ => ⟨S32x200x64x64, .f32⟩
  | .hbm, ⟨44, _⟩ => ⟨S_, .f32⟩
  | .hbm, ⟨45, _⟩ => ⟨S32x200x64x64, .f32⟩
  | .hbm, ⟨46, _⟩ => ⟨S32x200x64x64, .f32⟩
  | .hbm, ⟨47, _⟩ => ⟨S_, .f32⟩
  | .hbm, ⟨48, _⟩ => ⟨S32x200x64, .f32⟩
  | .hbm, ⟨49, _⟩ => ⟨S_, .f32⟩
  | .hbm, ⟨50, _⟩ => ⟨S32x200x64, .f32⟩
  | .hbm, ⟨51, _⟩ => ⟨S32x200x64, .f32⟩
  | .hbm, ⟨52, _⟩ => ⟨S32x200x64x1, .f32⟩
  | .hbm, ⟨53, _⟩ => ⟨S32x200x64x64, .f32⟩
  | .hbm, ⟨54, _⟩ => ⟨S32x200x64x64, .f32⟩
  | .hbm, ⟨55, _⟩ => ⟨S32x200x64x64, .f32⟩
  | .hbm, ⟨56, _⟩ => ⟨S_, .f32⟩
  | .hbm, ⟨57, _⟩ => ⟨S32x200x64, .f32⟩
  | .hbm, ⟨58, _⟩ => ⟨S32x200x64x1, .f32⟩
  | .hbm, ⟨59, _⟩ => ⟨S32x200x64x64, .f32⟩
  | .hbm, ⟨60, _⟩ => ⟨S32x200x64x64, .f32⟩
  | .hbm, ⟨61, _⟩ => ⟨S32x200x64x128, .f32⟩
  | .hbm, ⟨62, _⟩ => ⟨S1x1x1x128, .f32⟩
  | .hbm, ⟨63, _⟩ => ⟨S32x200x64x128, .f32⟩
  | .hbm, ⟨64, _⟩ => ⟨S32x200x64x128, .f32⟩
  | .hbm, ⟨65, _⟩ => ⟨S32x200x64x128, .f32⟩
  | .hbm, ⟨66, _⟩ => ⟨S_, .f32⟩
  | .hbm, ⟨67, _⟩ => ⟨S32x200x64, .f32⟩
  | .hbm, ⟨68, _⟩ => ⟨S32x200x64x1, .f32⟩
  | .hbm, ⟨69, _⟩ => ⟨S_, .f32⟩
  | .hbm, ⟨70, _⟩ => ⟨S32x200x64x1, .f32⟩
  | .hbm, ⟨71, _⟩ => ⟨S32x200x64x1, .f32⟩
  | .hbm, ⟨72, _⟩ => ⟨S_, .i32⟩
  | .hbm, ⟨73, _⟩ => ⟨S_, .f32⟩
  | .hbm, ⟨74, _⟩ => ⟨S32x200x64, .f32⟩
  | .hbm, ⟨75, _⟩ => ⟨S32x200x64x1, .f32⟩
  | .hbm, ⟨76, _⟩ => ⟨S_, .f32⟩
  | .hbm, ⟨77, _⟩ => ⟨S32x200x64x1, .f32⟩
  | .hbm, ⟨78, _⟩ => ⟨S32x200x64x1, .f32⟩
  | .hbm, ⟨79, _⟩ => ⟨S32x200x64x128, .f32⟩
  | .hbm, ⟨80, _⟩ => ⟨S32x200x64x128, .f32⟩
  | .hbm, ⟨81, _⟩ => ⟨S32x200x64x128, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S32x200x64, .f32⟩
  | .hbm, ⟨87, _⟩ => ⟨S32x200x64x1, .f32⟩
  | .hbm, ⟨88, _⟩ => ⟨S32x200x64x1, .f32⟩
  | .hbm, ⟨89, _⟩ => ⟨S32x200x64x1, .f32⟩
  | .hbm, ⟨90, _⟩ => ⟨S_, .f32⟩
  | .hbm, ⟨91, _⟩ => ⟨S_, .i1⟩
  | .hbm, ⟨92, _⟩ => ⟨S_, .f32⟩
  | .hbm, ⟨93, _⟩ => ⟨S_, .f32⟩
  | .hbm, ⟨94, _⟩ => ⟨S32x200x64x1, .f32⟩
  | .hbm, ⟨95, _⟩ => ⟨S32x200x64x1, .f32⟩
  | .hbm, ⟨96, _⟩ => ⟨S32x200x64x128, .f32⟩
  | .hbm, ⟨97, _⟩ => ⟨S32x200x64x128, .f32⟩
  | .hbm, ⟨98, _⟩ => ⟨S_, .f32⟩
  | .hbm, ⟨99, _⟩ => ⟨S32x200x64x1, .f32⟩
  | .hbm, ⟨100, _⟩ => ⟨S32x200x64x1, .f32⟩
  | .hbm, ⟨101, _⟩ => ⟨S32x200x64x1, .f32⟩
  | .hbm, ⟨102, _⟩ => ⟨S32x200x64x128, .f32⟩
  | .hbm, ⟨103, _⟩ => ⟨S32x200x64x128, .f32⟩
  | .hbm, ⟨104, _⟩ => ⟨S1x1x1x128, .f32⟩
  | .hbm, ⟨105, _⟩ => ⟨S32x200x64x128, .f32⟩
  | .hbm, ⟨106, _⟩ => ⟨S32x200x64x128, .f32⟩
  | .hbm, ⟨107, _⟩ => ⟨S1x1x1x128, .f32⟩
  | .hbm, ⟨108, _⟩ => ⟨S32x200x64x128, .f32⟩
  | .hbm, ⟨109, _⟩ => ⟨S32x200x64x128, .f32⟩
  | .hbm, ⟨110, _⟩ => ⟨S_, .f32⟩
  | .hbm, ⟨111, _⟩ => ⟨S32x200x64x128, .f32⟩
  | .hbm, ⟨112, _⟩ => ⟨S32x200x64x128, .f32⟩
  | _, _ => ⟨S32x200x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_cst_0 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_cst_1 : Ref sig .tc := ⟨.hbm, 24, rfl⟩
abbrev main_call0_call0_v8 : Ref sig .tc := ⟨.hbm, 25, rfl⟩
abbrev main_call0_call0_cst_2 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_call0_v12 : Ref sig .tc := ⟨.hbm, 30, rfl⟩
abbrev main_call0_call0_cst_3 : Ref sig .tc := ⟨.hbm, 31, rfl⟩
abbrev main_call0_call0_v13 : Ref sig .tc := ⟨.hbm, 32, rfl⟩
abbrev main_call0_call0_cst_4 : Ref sig .tc := ⟨.hbm, 33, rfl⟩
abbrev main_call0_call0_call0_v0 : Ref sig .tc := ⟨.hbm, 34, rfl⟩
abbrev main_call0_call0_call0_v1 : Ref sig .tc := ⟨.hbm, 35, rfl⟩
abbrev main_call0_v0 : Ref sig .tc := ⟨.hbm, 36, rfl⟩
abbrev main_v6 : Ref sig .tc := ⟨.hbm, 37, rfl⟩
abbrev main_cst_1 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_cst_2 : Ref sig .tc := ⟨.hbm, 44, rfl⟩
abbrev main_v12 : Ref sig .tc := ⟨.hbm, 45, rfl⟩
abbrev main_v13 : Ref sig .tc := ⟨.hbm, 46, rfl⟩
abbrev main_cst_3 : Ref sig .tc := ⟨.hbm, 47, rfl⟩
abbrev main_v14 : Ref sig .tc := ⟨.hbm, 48, rfl⟩
abbrev main_cst_4 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_cst_5 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_6 : Ref sig .tc := ⟨.hbm, 66, rfl⟩
abbrev main_v30 : Ref sig .tc := ⟨.hbm, 67, rfl⟩
abbrev main_v31 : Ref sig .tc := ⟨.hbm, 68, rfl⟩
abbrev main_cst_7 : Ref sig .tc := ⟨.hbm, 69, rfl⟩
abbrev main_v32 : Ref sig .tc := ⟨.hbm, 70, rfl⟩
abbrev main_v33 : Ref sig .tc := ⟨.hbm, 71, rfl⟩
abbrev main_c_8 : Ref sig .tc := ⟨.hbm, 72, rfl⟩
abbrev main_call1_cst : Ref sig .tc := ⟨.hbm, 73, rfl⟩
abbrev main_call1_v0 : Ref sig .tc := ⟨.hbm, 74, rfl⟩
abbrev main_call1_v1 : Ref sig .tc := ⟨.hbm, 75, rfl⟩
abbrev main_call1_cst_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_v6 : Ref sig .tc := ⟨.hbm, 81, rfl⟩
abbrev main_call1_v7 : Ref sig .tc := ⟨.hbm, 82, rfl⟩
abbrev main_call1_cst_1 : Ref sig .tc := ⟨.hbm, 83, rfl⟩
abbrev main_call1_v8 : Ref sig .tc := ⟨.hbm, 84, rfl⟩
abbrev main_call1_cst_2 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_v12 : Ref sig .tc := ⟨.hbm, 89, rfl⟩
abbrev main_call1_cst_3 : Ref sig .tc := ⟨.hbm, 90, rfl⟩
abbrev main_call1_v13 : Ref sig .tc := ⟨.hbm, 91, rfl⟩
abbrev main_call1_cst_4 : Ref sig .tc := ⟨.hbm, 92, rfl⟩
abbrev main_call1_call0_v0 : Ref sig .tc := ⟨.hbm, 93, rfl⟩
abbrev main_call1_call0_v1 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_cst_9 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_call2_cst : Ref sig .tc := ⟨.hbm, 110, rfl⟩
abbrev main_call2_v0 : Ref sig .tc := ⟨.hbm, 111, rfl⟩
abbrev main_v48 : Ref sig .tc := ⟨.hbm, 112, rfl⟩

abbrev nD : Nat := 1
abbrev τ : Topo := Topo.v7x

variable {F : FTy → Type} [FloatOps F]

class Facts₀ : Prop where
  reducesTo_S32x200x64x128_S32x200x64_d3 : S32x200x64x128.ReducesTo [3] S32x200x64
  h_S_ : 0 < S_.numel
  bcast_S32x200x64_S32x200x64x1_0_1_2 : S32x200x64.BroadcastsInDim S32x200x64x1 (![0, 1, 2] : Fin 3 → Fin S32x200x64x1.rank)
  bcast_S_S32x200x64x1 : S_.BroadcastsInDim S32x200x64x1 (![] : Fin 0 → Fin S32x200x64x1.rank)
  bcast_S32x200x64x1_S32x200x64x128_0_1_2_3 : S32x200x64x1.BroadcastsInDim S32x200x64x128 (![0, 1, 2, 3] : Fin 4 → Fin S32x200x64x128.rank)
  bcast_S_S32x200x64x64 : S_.BroadcastsInDim S32x200x64x64 (![] : Fin 0 → Fin S32x200x64x64.rank)
  reducesTo_S32x200x64x64_S32x200x64_d3 : S32x200x64x64.ReducesTo [3] S32x200x64
  bcast_S_S32x200x64 : S_.BroadcastsInDim S32x200x64 (![] : Fin 0 → Fin S32x200x64.rank)
  bcast_S32x200x64x1_S32x200x64x64_0_1_2_3 : S32x200x64x1.BroadcastsInDim S32x200x64x64 (![0, 1, 2, 3] : Fin 4 → Fin S32x200x64x64.rank)
  bcast_S128_S1x1x1x128_3 : S128.BroadcastsInDim S1x1x1x128 (![3] : Fin 1 → Fin S1x1x1x128.rank)
  bcast_S1x1x1x128_S32x200x64x128_0_1_2_3 : S1x1x1x128.BroadcastsInDim S32x200x64x128 (![0, 1, 2, 3] : Fin 4 → Fin S32x200x64x128.rank)
  bcast_S_S32x200x64x128 : S_.BroadcastsInDim S32x200x64x128 (![] : Fin 0 → Fin S32x200x64x128.rank)
  dot_S32x200x64x128_S32x200x64x128_S32x200x64x64_3_3_2_2_01_01_wf : DotDims.WF S32x200x64x128 S32x200x64x128 S32x200x64x64 [3] [3] [2] [2] [0, 1] [0, 1]
  dot_S32x200x64x128_S128x128_S32x200x64x128_3_1_012_0_n_n_wf : DotDims.WF S32x200x64x128 S128x128 S32x200x64x128 [3] [1] [0, 1, 2] [0] [] []
  dot_S32x200x64x64_S32x200x64x128_S32x200x64x128_3_2_2_3_01_01_wf : DotDims.WF S32x200x64x64 S32x200x64x128 S32x200x64x128 [3] [2] [2] [3] [0, 1] [0, 1]

variable [Facts₀]

def dot_S32x200x64x128_S32x200x64x128_S32x200x64x64_3_3_2_2_01_01 : DotDims S32x200x64x128 S32x200x64x128 S32x200x64x64 where
  lhsContracting := [3]
  rhsContracting := [3]
  lhsNonContracting := [2]
  rhsNonContracting := [2]
  lhsBatch := [0, 1]
  rhsBatch := [0, 1]
  wf := dot_S32x200x64x128_S32x200x64x128_S32x200x64x64_3_3_2_2_01_01_wf
def dot_S32x200x64x128_S128x128_S32x200x64x128_3_1_012_0_n_n : DotDims S32x200x64x128 S128x128 S32x200x64x128 where
  lhsContracting := [3]
  rhsContracting := [1]
  lhsNonContracting := [0, 1, 2]
  rhsNonContracting := [0]
  lhsBatch := []
  rhsBatch := []
  wf := dot_S32x200x64x128_S128x128_S32x200x64x128_3_1_012_0_n_n_wf
def dot_S32x200x64x64_S32x200x64x128_S32x200x64x128_3_2_2_3_01_01 : DotDims S32x200x64x64 S32x200x64x128 S32x200x64x128 where
  lhsContracting := [3]
  rhsContracting := [2]
  lhsNonContracting := [2]
  rhsNonContracting := [3]
  lhsBatch := [0, 1]
  rhsBatch := [0, 1]
  wf := dot_S32x200x64x64_S32x200x64x128_S32x200x64x128_3_2_2_3_01_01_wf

class Facts : Prop extends Facts₀ where

variable [Facts]
-- ==== Proof.Spec.lean ====
/-
  The mathematics both programs compute, for ONE window: 64 nodes (rows) with 128 features each.
  Every function below is over the extended reals, with the float literals kept as the values their
  patterns denote (the same patterns occur in both programs, so they are never evaluated here).

  * each row is centred by its mean and divided by its unbiased standard deviation plus a small constant;
  * the 64 × 64 matrix of row correlations (inner products over the 128 features, divided by 128) goes
    through a row-wise softmax: subtract the row maximum, exponentiate, divide by the row sum;
  * each row is also sent through the affine map  x ↦ W x + b  (128 → 128);
  * the softmax weights average those images (a 64 × 64 by 64 × 128 product);
  * every row of the result is layer-normalised (biased variance, a small constant under the inverse square
    root), scaled by gamma, shifted by beta, and clamped below at zero.
-/
import Idealize.ShloMosaic.PureOps.Ideal

noncomputable section

namespace Cert.GraphCorr

open Idealize.ShloMosaic

/-- 128.0 -/
abbrev c128 : EReal := Ideal.ofBits .f32 0x43000000#32
/-- 127.0 -/
abbrev c127 : EReal := Ideal.ofBits .f32 0x42FE0000#32
/-- the constant added to the standard deviation -/
abbrev epsC : EReal := Ideal.ofBits .f32 0x358637BD#32
/-- the constant added to the variance of the layer norm -/
abbrev epsL : EReal := Ideal.ofBits .f32 0x3727C5AC#32
/-- the value the running maximum starts from -/
abbrev ninf : EReal := Ideal.ofBits .f32 0xFF800000#32
/-- +0.0 -/
abbrev z32 : EReal := Ideal.ofBits .f32 0x00000000#32

/-! ### Rows centred and scaled -/

/-- The mean of row `i`. -/
def rowMean (xw : Fin 64 → Fin 128 → EReal) (i : Fin 64) : EReal := Ideal.div (∑ f : Fin 128, xw i f) c128
/-- Row `i` minus its mean. -/
def cen (xw : Fin 64 → Fin 128 → EReal) (i : Fin 64) (f : Fin 128) : EReal := xw i f - rowMean xw i
/-- The centred squares of row `i` summed, over a divisor `d`: a variance. -/
def varOver (d : EReal) (xw : Fin 64 → Fin 128 → EReal) (i : Fin 64) : EReal :=
  Ideal.div (∑ f : Fin 128, cen xw i f * cen xw i f) d
/-- The unbiased variance of row `i`: over 127. -/
def rowVar (xw : Fin 64 → Fin 128 → EReal) (i : Fin 64) : EReal := varOver c127 xw i
/-- The centred row over its standard deviation plus the small constant. -/
def xnorm (xw : Fin 64 → Fin 128 → EReal) (i : Fin 64) (f : Fin 128) : EReal :=
  Ideal.div (cen xw i f) (Ideal.sqrt (rowVar xw i) + epsC)

/-! ### The softmax of the correlations -/

/-- The correlation of rows `i` and `j` of the scaled window. -/
def corr (xn : Fin 64 → Fin 128 → EReal) (i j : Fin 64) : EReal := Ideal.div (∑ f : Fin 128, xn i f * xn j f) c128
/-- The largest correlation in row `i`. -/
def cmax (xn : Fin 64 → Fin 128 → EReal) (i : Fin 64) : EReal :=
  (Finset.univ : Finset (Fin 64)).fold max ninf (fun j => corr xn i j)
/-- The exponential of a correlation less its row's maximum. -/
def cexp (xn : Fin 64 → Fin 128 → EReal) (i j : Fin 64) : EReal := Ideal.exp (corr xn i j - cmax xn i)
/-- The softmax weight. -/
def wgt (xn : Fin 64 → Fin 128 → EReal) (i j : Fin 64) : EReal := Ideal.div (cexp xn i j) (∑ j' : Fin 64, cexp xn i j')

/-! ### The affine map, the weighted average, the layer norm -/

/-- Row `j` through `x ↦ W x + b`, at output feature `o`. -/
def lin (xw : Fin 64 → Fin 128 → EReal) (W : Fin 128 → Fin 128 → EReal) (b : Fin 128 → EReal) (j : Fin 64) (o : Fin 128) : EReal :=
  (∑ f : Fin 128, xw j f * W o f) + b o
/-- The weights' average of the rows `h`. -/
def agg (w : Fin 64 → Fin 64 → EReal) (h : Fin 64 → Fin 128 → EReal) (i : Fin 64) (o : Fin 128) : EReal :=
  ∑ j : Fin 64, w i j * h j o
/-- Row `i` of `a` centred, times the inverse square root of its biased variance (over 128) plus the small
    constant, scaled by `g`, shifted by `be`, clamped below at zero. -/
def lnOut (a : Fin 64 → Fin 128 → EReal) (g be : Fin 128 → EReal) (i : Fin 64) (o : Fin 128) : EReal :=
  max (cen a i o * Ideal.rsqrt (varOver c128 a i + epsL) * g o + be o) z32

/-- The whole window. -/
def res (xw : Fin 64 → Fin 128 → EReal) (W : Fin 128 → Fin 128 → EReal) (b g be : Fin 128 → EReal) (i : Fin 64) (o : Fin 128) : EReal :=
  lnOut (agg (wgt (xnorm xw)) (lin xw W b)) g be i o

end Cert.GraphCorr

end
-- ==== Proof.SpecOut.lean ====
/-
  The result array both programs end at, as ONE function of the five argument arrays: at (batch, time, row,
  output feature) the window function of that (batch, time)'s window of x, with W, b, gamma, beta read as they
  are given.
-/
import proofs.«182105_j65403761983862_1_alg».proof.Proof.Spec
import Idealize.ShloMosaic.Lib.ValueIdx

noncomputable section

namespace Cert.GraphCorr

open Idealize.ShloMosaic Idealize.ShloMosaic.ValueIdx

/-- The whole result, index by index. -/
def resultArr (x : (⟨4, ![32, 200, 64, 128]⟩ : Shape).Idx → EReal) (W : (⟨2, ![128, 128]⟩ : Shape).Idx → EReal)
    (b g be : (⟨1, ![128]⟩ : Shape).Idx → EReal) : (⟨4, ![32, 200, 64, 128]⟩ : Shape).Idx → EReal :=
  fun j => res (fun r f => x (ix4 (j 0) (j 1) r f)) (fun o f => W (ix2 o f)) (fun o => b (ix1 o)) (fun o => g (ix1 o))
    (fun o => be (ix1 o)) (j 2) (j 3)

theorem resultArr_apply (x : (⟨4, ![32, 200, 64, 128]⟩ : Shape).Idx → EReal) (W : (⟨2, ![128, 128]⟩ : Shape).Idx → EReal)
    (b g be : (⟨1, ![128]⟩ : Shape).Idx → EReal) (bb : Fin 32) (t : Fin 200) (r : Fin 64) (o : Fin 128) :
    resultArr x W b g be (ix4 bb t r o)
      = res (fun r f => x (ix4 bb t r f)) (fun o f => W (ix2 o f)) (fun o => b (ix1 o)) (fun o => g (ix1 o)) (fun o => be (ix1 o)) r o := rfl

end Cert.GraphCorr

end
-- ==== Proof.KerTerm.lean ====
/-
  The kernel body's arithmetic cut into its five stretches, each a function of the vectors it starts from:
  the block's rows centred and scaled; the softmax of their correlations; the block's rows through the affine
  map; the weighted average; the layer norm. The body's payloads are these composed (`pay2_eq`, `pay3_eq`,
  `pay1_eq`), so each stretch can be read at an index by itself.
-/
import proofs.«182105_j65403761983862_1_alg».proof.Proof.Gen.KernelIdeal.Skeleton

noncomputable section

namespace Cert.KernelIdeal.Terms

open Idealize.ShloMosaic Cert.KernelIdeal Cert.KernelIdeal.Gen

variable {F : FTy → Type} [FloatOps F]

/-- The block's rows, each minus its mean and over its standard deviation plus the small constant (`%17`). -/
def kXn (v0 : Vec F S128x64x128 .f32) : FVec F S128x64x128 .f32 :=
  have v1 : FVec F S128x64x128 .f32 := shapeCast S128x64x128 v0 shapeCasts_S128x64x128_S128x64x128
  have v2 : FVec F S128x64 .f32 := multiReduction .add [2] S128x64 v1 0x00000000#32 reduces_S128x64x128_S128x64 (.inl rfl) rfl
  have v3 : FVec F S128x64x1 .f32 := shapeCast S128x64x1 v2 shapeCasts_S128x64_S128x64x1
  have cst_2 : F .f32 := Scalar.ofBits .f32 0x43000000#32
  have v4 : FVec F S128x64x1 .f32 := broadcast S128x64x1 cst_2
  have v5 : FVec F S128x64x1 .f32 := divf v3 v4
  have v6 : FVec F S128x64x128 .f32 := broadcastTo S128x64x128 v5 broadcasts_S128x64x1_S128x64x128
  have v7 : FVec F S128x64x128 .f32 := subf v1 v6
  have v8 : FVec F S128x64x128 .f32 := mulf v7 v7
  have v9 : FVec F S128x64 .f32 := multiReduction .add [2] S128x64 v8 0x00000000#32 reduces_S128x64x128_S128x64 (.inl rfl) rfl
  have v10 : FVec F S128x64x1 .f32 := shapeCast S128x64x1 v9 shapeCasts_S128x64_S128x64x1
  have cst_4 : F .f32 := Scalar.ofBits .f32 0x42FE0000#32
  have v11 : FVec F S128x64x1 .f32 := broadcast S128x64x1 cst_4
  have v12 : FVec F S128x64x1 .f32 := divf v10 v11
  have v13 : FVec F S128x64x1 .f32 := sqrt v12
  have cst_5 : F .f32 := Scalar.ofBits .f32 0x358637BD#32
  have v14 : FVec F S128x64x1 .f32 := broadcast S128x64x1 cst_5
  have v15 : FVec F S128x64x1 .f32 := addf v13 v14
  have v16 : FVec F S128x64x128 .f32 := broadcastTo S128x64x128 v15 broadcasts_S128x64x1_S128x64x128
  have v17 : FVec F S128x64x128 .f32 := divf v7 v16
  v17

/-- The softmax over the last axis of the scaled rows' correlations (`%29` from `%17`). -/
def kWgt (v17 : FVec F S128x64x128 .f32) : FVec F S128x64x64 .f32 :=
  have cst_6 : FVec F S128x64x64 .f32 := constant S128x64x64 .f32 0x00000000#32
  have v18 : FVec F S128x64x64 .f32 := matmul dot_S128x64x128_S128x64x128_S128x64x64_2_2_1_1_0_0 none v17 v17 cst_6
  have cst_7 : F .f32 := Scalar.ofBits .f32 0x43000000#32
  have v19 : FVec F S128x64x64 .f32 := broadcast S128x64x64 cst_7
  have v20 : FVec F S128x64x64 .f32 := divf v18 v19
  have v21 : FVec F S128x64 .f32 := multiReduction .maximumf [2] S128x64 v20 0xFF800000#32 reduces_S128x64x64_S128x64 (.inl rfl) rfl
  have v22 : FVec F S128x64x1 .f32 := shapeCast S128x64x1 v21 shapeCasts_S128x64_S128x64x1
  have v23 : FVec F S128x64x64 .f32 := broadcastTo S128x64x64 v22 broadcasts_S128x64x1_S128x64x64
  have v24 : FVec F S128x64x64 .f32 := subf v20 v23
  have v25 : FVec F S128x64x64 .f32 := exp v24
  have v26 : FVec F S128x64 .f32 := multiReduction .add [2] S128x64 v25 0x00000000#32 reduces_S128x64x64_S128x64 (.inl rfl) rfl
  have v27 : FVec F S128x64x1 .f32 := shapeCast S128x64x1 v26 shapeCasts_S128x64_S128x64x1
  have v28 : FVec F S128x64x64 .f32 := broadcastTo S128x64x64 v27 broadcasts_S128x64x1_S128x64x64
  have v29 : FVec F S128x64x64 .f32 := divf v25 v28
  v29

/-- The block's rows through the affine map: the block as 8192 rows times the staged matrix, plus the staged
    vector on every row, as a block again (`%38`). -/
def kLin (v0 : Vec F S128x64x128 .f32) (v31 : Vec F S128x128 .f32) (v34 : Vec F S128 .f32) : FVec F S128x64x128 .f32 :=
  have v1 : FVec F S128x64x128 .f32 := shapeCast S128x64x128 v0 shapeCasts_S128x64x128_S128x64x128
  have v30 : FVec F S8192x128 .f32 := shapeCast S8192x128 v1 shapeCasts_S128x64x128_S8192x128
  have v32 : FVec F S128x128 .f32 := shapeCast S128x128 v31 shapeCasts_S128x128_S128x128
  have cst_12 : FVec F S8192x128 .f32 := constant S8192x128 .f32 0x00000000#32
  have v33 : FVec F S8192x128 .f32 := matmul dot_S8192x128_S128x128_S8192x128_1_0_0_1_n_n none v30 v32 cst_12
  have v35 : FVec F S1x128 .f32 := shapeCast S1x128 v34 shapeCasts_S128_S1x128
  have v36 : FVec F S8192x128 .f32 := broadcastTo S8192x128 v35 broadcasts_S1x128_S8192x128
  have v37 : FVec F S8192x128 .f32 := addf v33 v36
  have v38 : FVec F S128x64x128 .f32 := shapeCast S128x64x128 v37 shapeCasts_S8192x128_S128x64x128
  v38

/-- The weights times the mapped rows, window by window (`%39`). -/
def kAgg (v29 : FVec F S128x64x64 .f32) (v38 : FVec F S128x64x128 .f32) : FVec F S128x64x128 .f32 :=
  have cst_14 : FVec F S128x64x128 .f32 := constant S128x64x128 .f32 0x00000000#32
  matmul dot_S128x64x64_S128x64x128_S128x64x128_2_1_1_2_0_0 none v29 v38 cst_14

/-- The lane sums of a block (`%40`). -/
def kRowSum (v39 : FVec F S128x64x128 .f32) : FVec F S128x64 .f32 :=
  multiReduction .add [2] S128x64 v39 0x00000000#32 reduces_S128x64x128_S128x64 (.inl rfl) rfl

/-- The first payload is the four stretches composed. -/
theorem pay2_eq (v0 : Vec F S128x64x128 .f32) (v31 : Vec F S128x128 .f32) (v34 : Vec F S128 .f32) :
    k0_pay2 v0 v31 v34 = kAgg (kWgt (kXn v0)) (kLin v0 v31 v34) := rfl

/-- The second is its lane sums. -/
theorem pay3_eq (v0 : Vec F S128x64x128 .f32) (v31 : Vec F S128x128 .f32) (v34 : Vec F S128 .f32) :
    k0_pay3 v0 v31 v34 = kRowSum (k0_pay2 v0 v31 v34) := rfl

end Cert.KernelIdeal.Terms

end
-- ==== Proof.KerA.lean ====
import proofs.«182105_j65403761983862_1_alg».proof.Proof.Spec
import proofs.«182105_j65403761983862_1_alg».proof.Proof.KerTerm
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.KernelIdeal.KerA

open Idealize.ShloMosaic Idealize.ShloMosaic.ValueIdx Cert.KernelIdeal Cert.KernelIdeal.Gen Cert.KernelIdeal.Terms Cert.GraphCorr

/-! ### The non-pointwise operations of the two stretches, each read at an index -/

/-- The sum over the last axis of a [128, 64, 128] block, read at (window, row): the sum over the 128 features. -/
private theorem laneSum128_apply (v : FVec Ideal S128x64x128 .f32) (hφ : FKind.Formats .f32)
    (hacc : (0x00000000#32 : BitVec 32) = 0x00000000#32) (w : Fin 128) (i : Fin 64) :
    multiReduction (F := Ideal) .add [2] S128x64 v 0x00000000#32 reduces_S128x64x128_S128x64 hφ hacc (ix2 w i)
      = ∑ k : Fin 128, v (ix3 w i k) := by
  refine (Ideal.multiReduction_add_single v 0x00000000#32 reduces_S128x64x128_S128x64 hφ hacc (ix2 w i)).trans ?_
  refine Finset.sum_congr rfl fun k _ => congrArg v ?_
  funext a
  apply Fin.ext
  match a with
  | ⟨0, _⟩ => rfl
  | ⟨1, _⟩ => rfl
  | ⟨2, _⟩ => rfl

/-- The sum over the last axis of a [128, 64, 64] block, read at (window, row): the sum over the 64 columns. -/
private theorem laneSum64_apply (v : FVec Ideal S128x64x64 .f32) (hφ : FKind.Formats .f32)
    (hacc : (0x00000000#32 : BitVec 32) = 0x00000000#32) (w : Fin 128) (i : Fin 64) :
    multiReduction (F := Ideal) .add [2] S128x64 v 0x00000000#32 reduces_S128x64x64_S128x64 hφ hacc (ix2 w i)
      = ∑ k : Fin 64, v (ix3 w i k) := by
  refine (Ideal.multiReduction_add_single v 0x00000000#32 reduces_S128x64x64_S128x64 hφ hacc (ix2 w i)).trans ?_
  refine Finset.sum_congr rfl fun k _ => congrArg v ?_
  funext a
  apply Fin.ext
  match a with
  | ⟨0, _⟩ => rfl
  | ⟨1, _⟩ => rfl
  | ⟨2, _⟩ => rfl

/-- The maximum over the last axis of a [128, 64, 64] block, read at (window, row): the fold of `max` over the 64
    columns, from the value the accumulator's pattern denotes. -/
private theorem laneMax64_apply (v : FVec Ideal S128x64x64 .f32) (hφ : FKind.Formats .f32)
    (hacc : (0xFF800000#32 : BitVec 32) = 0xFF800000#32) (w : Fin 128) (i : Fin 64) :
    multiReduction (F := Ideal) .maximumf [2] S128x64 v 0xFF800000#32 reduces_S128x64x64_S128x64 hφ hacc (ix2 w i)
      = (Finset.univ : Finset (Fin 64)).fold max (Ideal.ofBits .f32 0xFF800000#32) (fun k => v (ix3 w i k)) := by
  refine (Ideal.multiReduction_maximumf_single v 0xFF800000#32 reduces_S128x64x64_S128x64 hφ hacc (ix2 w i)).trans ?_
  refine congrArg (fun g => (Finset.univ : Finset (Fin 64)).fold max (Ideal.ofBits .f32 0xFF800000#32) g) ?_
  funext k
  refine congrArg v ?_
  funext a
  apply Fin.ext
  match a with
  | ⟨0, _⟩ => rfl
  | ⟨1, _⟩ => rfl
  | ⟨2, _⟩ => rfl

/-- A [128, 64] vector viewed [128, 64, 1], read at (window, row, 0): the vector at (window, row). -/
private theorem keep_apply {α : Type} (x : S128x64.Idx → α) (w : Fin 128) (i : Fin 64) (z : Fin 1) :
    shapeCast S128x64x1 x shapeCasts_S128x64_S128x64x1 (ix3 w i z) = x (ix2 w i) := by
  refine shapeCast_apply x _ (ix3 w i z) (ix2 w i) ?_
  rw [Shape.rowMajor_val_two, Shape.rowMajor_val_three]
  have hz := z.isLt
  show w.val * 64 + i.val = (w.val * 64 + i.val) * 1 + z.val
  omega

/-- A [128, 64, 1] column broadcast along 128 lanes, read at (window, row, feature): the column at (window, row, 0). -/
private theorem bcast128_apply {α : Type} (y : S128x64x1.Idx → α) (w : Fin 128) (i : Fin 64) (f : Fin 128) :
    broadcastTo S128x64x128 y broadcasts_S128x64x1_S128x64x128 (ix3 w i f) = y (ix3 w i (0 : Fin 1)) := by
  refine broadcastTo_apply y _ (ix3 w i f) (ix3 w i (0 : Fin 1)) fun a => ?_
  match a with
  | ⟨0, _⟩ => rfl
  | ⟨1, _⟩ => rfl
  | ⟨2, _⟩ => rfl

/-- A [128, 64, 1] column broadcast along 64 lanes, read at (window, row, column): the column at (window, row, 0). -/
private theorem bcast64_apply {α : Type} (y : S128x64x1.Idx → α) (w : Fin 128) (i : Fin 64) (j : Fin 64) :
    broadcastTo S128x64x64 y broadcasts_S128x64x1_S128x64x64 (ix3 w i j) = y (ix3 w i (0 : Fin 1)) := by
  refine broadcastTo_apply y _ (ix3 w i j) (ix3 w i (0 : Fin 1)) fun a => ?_
  match a with
  | ⟨0, _⟩ => rfl
  | ⟨1, _⟩ => rfl
  | ⟨2, _⟩ => rfl

/-- The square root of a vector, read at an index. -/
private theorem sqrt_apply {s : Shape} {φ : FTy} (a : FVec Ideal s φ) (i : s.Idx) : sqrt a i = Ideal.sqrt (a i) := rfl
/-- The exponential of a vector, read at an index. -/
private theorem exp_apply {s : Shape} {φ : FTy} (a : FVec Ideal s φ) (i : s.Idx) : exp a i = Ideal.exp (a i) := rfl
/-- A scalar constant at the ideal values is the value its pattern denotes. -/
private theorem scalar_ofBits (φ : FTy) (b : BitVec φ.bits) : Scalar.ofBits (F := Ideal) φ b = Ideal.ofBits φ b := rfl

/-- The product of a block of rows with itself, window by window, contracting the feature axis, read at
    (window, row, row): the inner product of the two rows over the 128 features. -/
private theorem gram_apply (xn : FVec Ideal S128x64x128 .f32) (w : Fin 128) (i j : Fin 64) :
    matmul (F := Ideal) dot_S128x64x128_S128x64x128_S128x64x64_2_2_1_1_0_0 none xn xn
        (constant (F := Ideal) S128x64x64 .f32 0x00000000#32) (ix3 w i j)
      = ∑ f : Fin 128, xn (ix3 w i f) * xn (ix3 w j f) := by
  show FloatOps.matmul _ none xn xn _ (ix3 w i j) = _
  rw [Ideal.matmul_constant_zero_apply,
    ← Equiv.sum_comp (contrEquiv1 dot_S128x64x128_S128x64x128_S128x64x64_2_2_1_1_0_0 128 rfl rfl).symm]
  refine Finset.sum_congr rfl fun c _ => ?_
  have c3 := contrEquiv1_symm_val dot_S128x64x128_S128x64x128_S128x64x64_2_2_1_1_0_0 128 rfl rfl c
  have l3 : dot_S128x64x128_S128x64x128_S128x64x64_2_2_1_1_0_0.lhsIdx (ix3 w i j)
      ((contrEquiv1 _ 128 rfl rfl).symm c) = ix3 w i c := by
    funext ax; apply Fin.ext
    match ax with
    | ⟨0, _⟩ => simp [DotDims.lhsIdx, dot_S128x64x128_S128x64x128_S128x64x64_2_2_1_1_0_0]; rfl
    | ⟨1, _⟩ => simp [DotDims.lhsIdx, dot_S128x64x128_S128x64x128_S128x64x64_2_2_1_1_0_0]; rfl
    | ⟨2, _⟩ => simp [DotDims.lhsIdx, dot_S128x64x128_S128x64x128_S128x64x64_2_2_1_1_0_0]; exact c3
  have r3 : dot_S128x64x128_S128x64x128_S128x64x64_2_2_1_1_0_0.rhsIdx (ix3 w i j)
      ((contrEquiv1 _ 128 rfl rfl).symm c) = ix3 w j c := by
    funext ax; apply Fin.ext
    match ax with
    | ⟨0, _⟩ => simp [DotDims.rhsIdx, dot_S128x64x128_S128x64x128_S128x64x64_2_2_1_1_0_0]; rfl
    | ⟨1, _⟩ => simp [DotDims.rhsIdx, dot_S128x64x128_S128x64x128_S128x64x64_2_2_1_1_0_0]; rfl
    | ⟨2, _⟩ => simp [DotDims.rhsIdx, dot_S128x64x128_S128x64x128_S128x64x64_2_2_1_1_0_0]; exact c3
  rw [l3, r3]

/-- The scaled rows of a block, read at (window, row, feature). -/
theorem kXn_apply (v0 : Vec Ideal S128x64x128 .f32) (w : Fin 128) (i : Fin 64) (f : Fin 128) :
    kXn v0 (ix3 w i f) = xnorm (fun i f => v0 (ix3 w i f)) i f := by
  unfold kXn
  -- each operation read at its index: the two lane sums become sums over the 128 features of the row
  simp (config := {index := false}) only [shapeCast_self, divf_apply, subf_apply, mulf_apply, addf_apply, sqrt_apply,
    broadcast_apply, bcast128_apply, keep_apply, laneSum128_apply, scalar_ofBits]
  -- the same expression as the centred row over its standard deviation plus the small constant
  simp only [xnorm, cen, rowMean, rowVar, varOver]

/-- The softmax weights of a block of scaled rows, read at (window, row, row). -/
theorem kWgt_apply (xn : FVec Ideal S128x64x128 .f32) (w : Fin 128) (i j : Fin 64) :
    kWgt xn (ix3 w i j) = wgt (fun i f => xn (ix3 w i f)) i j := by
  unfold kWgt
  -- each operation read at its index: the product gives the rows' inner products, the two lane reductions the
  -- row's maximum and the row's sum of exponentials
  simp (config := {index := false}) only [divf_apply, subf_apply, exp_apply, broadcast_apply, bcast64_apply, keep_apply,
    laneSum64_apply, laneMax64_apply, gram_apply, scalar_ofBits]
  -- the same expression as the softmax of the correlations
  simp only [wgt, cexp, cmax, corr]

end Cert.KernelIdeal.KerA

end
-- ==== Proof.KerB.lean ====
import proofs.«182105_j65403761983862_1_alg».proof.Proof.Spec
import proofs.«182105_j65403761983862_1_alg».proof.Proof.KerTerm
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.KernelIdeal.KerB

open Idealize.ShloMosaic Idealize.ShloMosaic.ValueIdx Cert.KernelIdeal Cert.KernelIdeal.Gen Cert.KernelIdeal.Terms Cert.GraphCorr

/-! ### The two reshapes read at an index -/

/-- The block as 8192 rows of 128: row `w * 64 + j` is row `j` of window `w`. -/
private theorem rows_apply {α : Type} (v : S128x64x128.Idx → α) (h : S128x64x128.ShapeCasts S8192x128)
    (w : Fin 128) (j : Fin 64) (f : Fin 128) (r : Fin 8192) (hr : r.val = w.val * 64 + j.val) :
    shapeCast S8192x128 v h (ix2 r f) = v (ix3 w j f) :=
  shapeCast_apply v h _ _ (by
    rw [Shape.rowMajor_val_three, Shape.rowMajor_val_two]
    show (w.val * 64 + j.val) * 128 + f.val = r.val * 128 + f.val
    rw [hr])

/-- 8192 rows of 128 as a block again: row `j` of window `w` is row `w * 64 + j`. -/
private theorem block_apply {α : Type} (v : S8192x128.Idx → α) (h : S8192x128.ShapeCasts S128x64x128)
    (w : Fin 128) (j : Fin 64) (o : Fin 128) (r : Fin 8192) (hr : r.val = w.val * 64 + j.val) :
    shapeCast S128x64x128 v h (ix3 w j o) = v (ix2 r o) :=
  shapeCast_apply v h _ _ (by
    rw [Shape.rowMajor_val_two, Shape.rowMajor_val_three]
    show r.val * 128 + o.val = (w.val * 64 + j.val) * 128 + o.val
    rw [hr])

/-! ### The two products read at an index -/

/-- The product of 8192 rows with a `[128, 128]` matrix, the rows' axis 1 contracted with the matrix's axis 0, into
    the zero splat, read at `(r, o)`. -/
private theorem rowsMatmul_apply (A : FVec Ideal S8192x128 .f32) (B : FVec Ideal S128x128 .f32) (r : Fin 8192) (o : Fin 128) :
    matmul dot_S8192x128_S128x128_S8192x128_1_0_0_1_n_n none A B (constant (F := Ideal) S8192x128 .f32 0x00000000#32) (ix2 r o)
      = ∑ k : Fin 128, A (ix2 r k) * B (ix2 k o) := by
  show FloatOps.matmul _ none A B _ (ix2 r o) = _
  rw [Ideal.matmul_constant_zero_apply,
    ← Equiv.sum_comp (contrEquiv1 dot_S8192x128_S128x128_S8192x128_1_0_0_1_n_n 128 rfl rfl).symm]
  refine Finset.sum_congr rfl fun c _ => ?_
  have c2 := contrEquiv1_symm_val dot_S8192x128_S128x128_S8192x128_1_0_0_1_n_n 128 rfl rfl c
  have l2 : dot_S8192x128_S128x128_S8192x128_1_0_0_1_n_n.lhsIdx (ix2 r o) ((contrEquiv1 _ 128 rfl rfl).symm c) = ix2 r c := by
    funext ax; apply Fin.ext
    match ax with
    | ⟨0, _⟩ => simp [DotDims.lhsIdx, dot_S8192x128_S128x128_S8192x128_1_0_0_1_n_n]; rfl
    | ⟨1, _⟩ => simp [DotDims.lhsIdx, dot_S8192x128_S128x128_S8192x128_1_0_0_1_n_n]; exact c2
  have r2 : dot_S8192x128_S128x128_S8192x128_1_0_0_1_n_n.rhsIdx (ix2 r o) ((contrEquiv1 _ 128 rfl rfl).symm c) = ix2 c o := by
    funext ax; apply Fin.ext
    match ax with
    | ⟨0, _⟩ => simp [DotDims.rhsIdx, dot_S8192x128_S128x128_S8192x128_1_0_0_1_n_n]; exact c2
    | ⟨1, _⟩ => simp [DotDims.rhsIdx, dot_S8192x128_S128x128_S8192x128_1_0_0_1_n_n]; rfl
  rw [l2, r2]

/-- The window-by-window product `[128, 64, 64] × [128, 64, 128]`, the left's axis 2 contracted with the right's
    axis 1, into the zero splat, read at `(w, i, o)`. -/
private theorem winMatmul_apply (A : FVec Ideal S128x64x64 .f32) (B : FVec Ideal S128x64x128 .f32) (w : Fin 128) (i : Fin 64) (o : Fin 128) :
    matmul dot_S128x64x64_S128x64x128_S128x64x128_2_1_1_2_0_0 none A B (constant (F := Ideal) S128x64x128 .f32 0x00000000#32) (ix3 w i o)
      = ∑ j : Fin 64, A (ix3 w i j) * B (ix3 w j o) := by
  show FloatOps.matmul _ none A B _ (ix3 w i o) = _
  rw [Ideal.matmul_constant_zero_apply,
    ← Equiv.sum_comp (contrEquiv1 dot_S128x64x64_S128x64x128_S128x64x128_2_1_1_2_0_0 64 rfl rfl).symm]
  refine Finset.sum_congr rfl fun c _ => ?_
  have c3 := contrEquiv1_symm_val dot_S128x64x64_S128x64x128_S128x64x128_2_1_1_2_0_0 64 rfl rfl c
  have l3 : dot_S128x64x64_S128x64x128_S128x64x128_2_1_1_2_0_0.lhsIdx (ix3 w i o) ((contrEquiv1 _ 64 rfl rfl).symm c) = ix3 w i c := by
    funext ax; apply Fin.ext
    match ax with
    | ⟨0, _⟩ => simp [DotDims.lhsIdx, dot_S128x64x64_S128x64x128_S128x64x128_2_1_1_2_0_0]; rfl
    | ⟨1, _⟩ => simp [DotDims.lhsIdx, dot_S128x64x64_S128x64x128_S128x64x128_2_1_1_2_0_0]; rfl
    | ⟨2, _⟩ => simp [DotDims.lhsIdx, dot_S128x64x64_S128x64x128_S128x64x128_2_1_1_2_0_0]; exact c3
  have r3 : dot_S128x64x64_S128x64x128_S128x64x128_2_1_1_2_0_0.rhsIdx (ix3 w i o) ((contrEquiv1 _ 64 rfl rfl).symm c) = ix3 w c o := by
    funext ax; apply Fin.ext
    match ax with
    | ⟨0, _⟩ => simp [DotDims.rhsIdx, dot_S128x64x64_S128x64x128_S128x64x128_2_1_1_2_0_0]; rfl
    | ⟨1, _⟩ => simp [DotDims.rhsIdx, dot_S128x64x64_S128x64x128_S128x64x128_2_1_1_2_0_0]; exact c3
    | ⟨2, _⟩ => simp [DotDims.rhsIdx, dot_S128x64x64_S128x64x128_S128x64x128_2_1_1_2_0_0]; rfl
  rw [l3, r3]

/-! ### The two stretches -/

/-- The affine map on a block, read at (window, row, output feature): the staged matrix is read transposed. -/
theorem kLin_apply (v0 : Vec Ideal S128x64x128 .f32) (v31 : Vec Ideal S128x128 .f32) (v34 : Vec Ideal S128 .f32)
    (w : Fin 128) (j : Fin 64) (o : Fin 128) :
    kLin v0 v31 v34 (ix3 w j o)
      = lin (fun i f => v0 (ix3 w i f)) (fun o f => v31 (ix2 f o)) (fun o => v34 (ix1 o)) j o := by
  obtain ⟨r, hr⟩ : ∃ r : Fin 8192, r.val = w.val * 64 + j.val := ⟨⟨w.val * 64 + j.val, by omega⟩, rfl⟩
  simp only [kLin, lin, shapeCast_self, block_apply _ _ w j o r hr, addf_apply, rowsMatmul_apply,
    rows_apply _ _ w j _ r hr, broadcastTo_1b_ab_apply, shapeCast_a_1a_apply]

/-- The weighted average on a block, read at (window, row, output feature). -/
theorem kAgg_apply (wg : FVec Ideal S128x64x64 .f32) (h : FVec Ideal S128x64x128 .f32) (w : Fin 128) (i : Fin 64) (o : Fin 128) :
    kAgg wg h (ix3 w i o) = agg (fun i j => wg (ix3 w i j)) (fun j o => h (ix3 w j o)) i o := by
  simp only [kAgg, agg, winMatmul_apply]

end Cert.KernelIdeal.KerB

end
-- ==== Proof.KerC.lean ====
import proofs.«182105_j65403761983862_1_alg».proof.Proof.Spec
import proofs.«182105_j65403761983862_1_alg».proof.Proof.KerTerm
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.KernelIdeal.KerC

open Idealize.ShloMosaic Idealize.ShloMosaic.ValueIdx Cert.KernelIdeal Cert.KernelIdeal.Gen Cert.KernelIdeal.Terms Cert.GraphCorr

/-- The sum over the 128 lanes of a block, read at (window, row). -/
private theorem laneSum_apply (v : FVec Ideal S128x64x128 .f32) (w : Fin 128) (i : Fin 64) :
    multiReduction .add [2] S128x64 v 0x00000000#32 reduces_S128x64x128_S128x64 (.inl rfl) rfl (ix2 w i)
      = ∑ f : Fin 128, v (ix3 w i f) :=
  (Ideal.multiReduction_add_single v _ reduces_S128x64x128_S128x64 _ _ (ix2 w i)).trans
    (Finset.sum_congr rfl fun k _ => congrArg v (funext fun a =>
      match a with | ⟨0, _⟩ => rfl | ⟨1, _⟩ => rfl | ⟨2, _⟩ => rfl))

/-- Per-row values given a unit last axis read the row's value. -/
private theorem col_apply (v : FVec Ideal S128x64 .f32) (w : Fin 128) (i : Fin 64) (u : Fin 1) :
    shapeCast S128x64x1 v shapeCasts_S128x64_S128x64x1 (ix3 w i u) = v (ix2 w i) :=
  shapeCast_apply v _ (ix3 w i u) (ix2 w i) (by
    rw [Shape.rowMajor_val_two, Shape.rowMajor_val_three]
    show w.val * 64 + i.val = (w.val * 64 + i.val) * 1 + u.val
    omega)

/-- A column of per-row values spread over the 128 lanes reads the row's value. -/
private theorem spread_apply (v : FVec Ideal S128x64x1 .f32) (w : Fin 128) (i : Fin 64) (o : Fin 128) :
    broadcastTo S128x64x128 v broadcasts_S128x64x1_S128x64x128 (ix3 w i o) = v (ix3 w i 0) :=
  broadcastTo_apply v _ (ix3 w i o) (ix3 w i 0) (fun a => match a with | ⟨0, _⟩ => rfl | ⟨1, _⟩ => rfl | ⟨2, _⟩ => rfl)

/-- A vector of 128 per-feature values as a [1, 1, 128] block reads the feature's value. -/
private theorem feat_apply (v : Vec Ideal S128 .f32) (p q : Fin 1) (o : Fin 128) :
    shapeCast S1x1x128 v shapeCasts_S128_S1x1x128 (ix3 p q o) = v (ix1 o) :=
  shapeCast_apply v _ (ix3 p q o) (ix1 o) (by
    rw [Shape.rowMajor_val_one, Shape.rowMajor_val_three]
    show o.val = (p.val * 1 + q.val) * 128 + o.val
    omega)

/-- Per-feature values spread over every window and row read the feature's value. -/
private theorem featSpread_apply (v : FVec Ideal S1x1x128 .f32) (w : Fin 128) (i : Fin 64) (o : Fin 128) :
    broadcastTo S128x64x128 v broadcasts_S1x1x128_S128x64x128 (ix3 w i o) = v (ix3 0 0 o) :=
  broadcastTo_apply v _ (ix3 w i o) (ix3 0 0 o) (fun a => match a with | ⟨0, _⟩ => rfl | ⟨1, _⟩ => rfl | ⟨2, _⟩ => rfl)

/-- The inverse square root at an index is the extended reals' inverse square root of the element. -/
private theorem rsqrt_apply {s : Shape} (v : FVec Ideal s .f32) (j : s.Idx) : rsqrt v j = Ideal.rsqrt (v j) := rfl

/-- The layer norm payload on a block and its lane sums, read at (window, row, output feature). -/
theorem kLN_apply (a : FVec Ideal S128x64x128 .f32) (v58 v62 : Vec Ideal S128 .f32) (w : Fin 128) (i : Fin 64) (o : Fin 128) :
    k0_pay1 a (kRowSum a) v58 v62 (ix3 w i o)
      = lnOut (fun i o => a (ix3 w i o)) (fun o => v58 (ix1 o)) (fun o => v62 (ix1 o)) i o := by
  unfold k0_pay1 kRowSum
  -- the clamp, the shift, the scale and the two broadcast columns (the mean, the inverse deviation) at the index
  simp only [maximumf_apply, addf_apply, mulf_apply, subf_apply, spread_apply, featSpread_apply, col_apply, divf_apply,
    rsqrt_apply, broadcast_apply]
  -- the row's sum, the row's sum of centred squares, and the two per-feature vectors
  rw [laneSum_apply, laneSum_apply, feat_apply, feat_apply]
  -- inside the sum of squares: each entry less the row's mean
  simp only [mulf_apply, subf_apply, spread_apply, col_apply, divf_apply, broadcast_apply]
  rw [laneSum_apply]
  rfl

end Cert.KernelIdeal.KerC

end
-- ==== Proof.KerPay.lean ====
/-
  What the kernel body leaves in its output buffer, read at (window, row, output feature) of a block: the
  whole window function of the block's window, the staged matrix read transposed. The body's one store covers the
  buffer, so the buffer is the last payload; that payload is the layer norm of the first, which is the weighted
  average of the mapped rows by the softmax of the scaled rows' correlations: the five stretches, each read at
  an index, composed.
-/
import proofs.«182105_j65403761983862_1_alg».proof.Proof.KerA
import proofs.«182105_j65403761983862_1_alg».proof.Proof.KerB
import proofs.«182105_j65403761983862_1_alg».proof.Proof.KerC
import proofs.«182105_j65403761983862_1_alg».proof.Proof.Gen.KernelIdeal.Frame
import Idealize.ShloMosaic.Lib.Pipeline.Value

noncomputable section

namespace Cert.KernelIdeal.KerPay

open Idealize.ShloMosaic Idealize.ShloMosaic.ValueIdx Cert.KernelIdeal Cert.KernelIdeal.Gen Cert.KernelIdeal.Terms Cert.GraphCorr
open Cert.KernelIdeal.KerA Cert.KernelIdeal.KerB Cert.KernelIdeal.KerC

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The output buffer after the body is the last payload of the loaded blocks: one store, over the whole buffer. -/
theorem out_eq (x0 : Vec Ideal S128x64x128 .f32) (x1 : Vec Ideal S128x128 .f32) (x2 x3 x4 : Vec Ideal S128 .f32) :
    out0_5 x0 x1 x2 x3 x4 = k0_pay1 (k0_pay2 x0 x1 x2) (k0_pay3 x0 x1 x2) x3 x4 := by
  unfold out0_5
  rw [View.canon_unit_zero hz3]
  simp only [View.ld_unit_zero (S := S128x64x128) hz3, View.ld_unit_zero (S := S128x128) hz2, View.ld_unit_zero (S := S128) hz1]

/-- Read at (window, row, output feature): the window function of that window of the block. -/
theorem out_apply (x0 : Vec Ideal S128x64x128 .f32) (x1 : Vec Ideal S128x128 .f32) (x2 x3 x4 : Vec Ideal S128 .f32)
    (w : Fin 128) (i : Fin 64) (o : Fin 128) :
    out0_5 x0 x1 x2 x3 x4 (ix3 w i o)
      = res (fun i f => x0 (ix3 w i f)) (fun o f => x1 (ix2 f o)) (fun o => x2 (ix1 o)) (fun o => x3 (ix1 o)) (fun o => x4 (ix1 o)) i o := by
  rw [out_eq, pay3_eq, KerC.kLN_apply, pay2_eq]
  unfold res
  simp only [kAgg_apply, kWgt_apply, kXn_apply, kLin_apply]

end Cert.KernelIdeal.KerPay

end
-- ==== Proof.KerValue.lean ====
/-
  The kernel program's run, read: the result array ends at `resultArr` of the five arguments.
  The region finds x flattened to 6400 windows and W transposed (the two host operations before it); grid point t
  handles windows 128 t … 128 t + 127: its input block is those windows of the flat array, and what it writes back
  is, at (window, row, feature), the window function of that window (the body's payload read at an index). The 50
  blocks tile the flat output array, so that array is the window function of each of its 6400 windows; the host
  reshape after the region lays the 6400 windows out as 32 × 200 again.
-/
import proofs.«182105_j65403761983862_1_alg».proof.Proof.SpecOut
import proofs.«182105_j65403761983862_1_alg».proof.Proof.KerPay
import proofs.«182105_j65403761983862_1_alg».proof.Proof.Gen.KernelIdeal.Frame
import Idealize.ShloMosaic.Lib.Pipeline.Value
import Idealize.ShloMosaic.Lib.ValueLayout
import Idealize.ShloMosaic.Lib.StableHlo.Run

noncomputable section

namespace Cert.KernelIdeal.KerValue

open Idealize.ShloMosaic Idealize.ShloMosaic.TcCoe Idealize.SL.Sem Idealize.ShloMosaic.ValueIdx
open Cert.KernelIdeal Cert.KernelIdeal.Gen Cert.GraphCorr
open Idealize.ShloMosaic.Pipeline (Dat)

variable (m : (ℓ : Loc nD τ sig) → Buf (Elt Ideal) ℓ) (ρ : Dev nD → PrngReg)

/-! ## The arrays as the region finds them -/

/-- The flat array of windows is the first argument reshaped. -/
theorem V_v0 (c : Dev nD) : (V m c main_v0 : S6400x64x128.Idx → EReal)
    = shapeCast S6400x64x128 (m ((c : Thread nD τ).loc main_arg0)) shapeCasts_S32x200x64x128_S6400x64x128 := by
  show StableHlo.after hostOps0 (fun b => m (c, b)) (Proc.devRef .tc main_v0) = _
  after_results
  rfl

/-- The staged matrix is the second argument transposed. -/
theorem V_v1 (c : Dev nD) : (V m c main_v1 : S128x128.Idx → EReal)
    = transpose S128x128 [1, 0] (m ((c : Thread nD τ).loc main_arg1)) transposes_S128x128_S128x128_1_0 := by
  show StableHlo.after hostOps0 (fun b => m (c, b)) (Proc.devRef .tc main_v1) = _
  after_results

/-- Window `n = 200 bb + t` of the flat array is window (bb, t) of the argument. -/
theorem V_v0_apply (c : Dev nD) (bb : Fin 32) (t : Fin 200) (r : Fin 64) (f : Fin 128) (n : Fin 6400)
    (hn : n.val = bb.val * 200 + t.val) :
    (V m c main_v0 : S6400x64x128.Idx → EReal) (ix3 n r f)
      = (m ((c : Thread nD τ).loc main_arg0) : S32x200x64x128.Idx → EReal) (ix4 bb t r f) := by
  rw [V_v0]
  refine shapeCast_apply _ _ _ _ ?_
  show (S32x200x64x128.rowMajor (ix4 bb t r f)).val = (S6400x64x128.rowMajor (ix3 n r f)).val
  rw [Shape.rowMajor_val_four, Shape.rowMajor_val_three]
  show ((bb.val * 200 + t.val) * 64 + r.val) * 128 + f.val = (n.val * 64 + r.val) * 128 + f.val
  rw [hn]

/-- The staged matrix at (f, o) is the argument at (o, f). -/
theorem V_v1_apply (c : Dev nD) (f o : Fin 128) :
    (V m c main_v1 : S128x128.Idx → EReal) (ix2 f o) = (m ((c : Thread nD τ).loc main_arg1) : S128x128.Idx → EReal) (ix2 o f) := by
  rw [V_v1]
  exact transpose_ix2_apply _ _ f o

/-! ## The blocks -/

/-- The index maps over the grid: the window axis moves with the point, everything else stays at block 0. -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 1) = 0 ∧ win0_3.index t (0 : Fin 1) = 0 ∧ win0_4.index t (0 : Fin 1) = 0 :=
  (by decide +kernel : ∀ t : Fin grid0.N, _)

/-- Point t's block of the flat array: window w of the block is window 128 t + w of the array. -/
theorem iblk0_apply (c : Dev nD) (t : Fin cfg0.N) (w : Fin 128) (r : Fin 64) (f : Fin 128) (n : Fin 6400)
    (hn : n.val = t.val * 128 + w.val) :
    (iblk m c 0 t : Vec Ideal S128x64x128 .f32) (ix3 w r f) = (V m c main_v0 : S6400x64x128.Idx → EReal) (ix3 n r f) := by
  obtain ⟨h0, h1, h2, -⟩ := idx_facts t
  unfold iblk
  rw [View.read_apply]
  show V m c main_v0 _ = V m c main_v0 _
  congr 1
  funext a
  apply Fin.ext
  match a with
  | ⟨0, _⟩ => show win0_0.index t 0 * 128 + 1 * w.val = n.val; rw [h0, hn]; omega
  | ⟨1, _⟩ => show win0_0.index t 1 * 64 + 1 * r.val = r.val; rw [h1]; omega
  | ⟨2, _⟩ => show win0_0.index t 2 * 128 + 1 * f.val = f.val; rw [h2]; omega

/-- The staged matrix's block is the whole matrix. -/
theorem iblk1_apply (c : Dev nD) (t : Fin cfg0.N) (a b : Fin 128) :
    (iblk m c 1 t : Vec Ideal S128x128 .f32) (ix2 a b) = (V m c main_v1 : S128x128.Idx → EReal) (ix2 a b) := by
  obtain ⟨-, -, -, -, -, -, h0, h1, -⟩ := idx_facts t
  unfold iblk
  rw [View.read_apply]
  show V m c main_v1 _ = V m c main_v1 _
  congr 1
  funext k
  apply Fin.ext
  match k with
  | ⟨0, _⟩ => show win0_1.index t 0 * 128 + 1 * a.val = a.val; rw [h0]; omega
  | ⟨1, _⟩ => show win0_1.index t 1 * 128 + 1 * b.val = b.val; rw [h1]; omega

/-- Each staged vector's block is the whole vector, as launched. -/
theorem iblk2_apply (c : Dev nD) (t : Fin cfg0.N) (o : Fin 128) :
    (iblk m c 2 t : Vec Ideal S128 .f32) (ix1 o) = (m ((c : Thread nD τ).loc main_arg2) : S128.Idx → EReal) (ix1 o) := by
  obtain ⟨-, -, -, -, -, -, -, -, h, -, -⟩ := idx_facts t
  unfold iblk
  rw [View.read_apply]
  show V m c main_arg2 _ = _
  rw [V_main_arg2]
  congr 1
  funext k
  apply Fin.ext
  match k with
  | ⟨0, _⟩ => show win0_2.index t 0 * 128 + 1 * o.val = o.val; rw [h]; omega
theorem iblk3_apply (c : Dev nD) (t : Fin cfg0.N) (o : Fin 128) :
    (iblk m c 3 t : Vec Ideal S128 .f32) (ix1 o) = (m ((c : Thread nD τ).loc main_arg3) : S128.Idx → EReal) (ix1 o) := by
  obtain ⟨-, -, -, -, -, -, -, -, -, h, -⟩ := idx_facts t
  unfold iblk
  rw [View.read_apply]
  show V m c main_arg3 _ = _
  rw [V_main_arg3]
  congr 1
  funext k
  apply Fin.ext
  match k with
  | ⟨0, _⟩ => show win0_3.index t 0 * 128 + 1 * o.val = o.val; rw [h]; omega
theorem iblk4_apply (c : Dev nD) (t : Fin cfg0.N) (o : Fin 128) :
    (iblk m c 4 t : Vec Ideal S128 .f32) (ix1 o) = (m ((c : Thread nD τ).loc main_arg4) : S128.Idx → EReal) (ix1 o) := by
  obtain ⟨-, -, -, -, -, -, -, -, -, -, h⟩ := idx_facts t
  unfold iblk
  rw [View.read_apply]
  show V m c main_arg4 _ = _
  rw [V_main_arg4]
  congr 1
  funext k
  apply Fin.ext
  match k with
  | ⟨0, _⟩ => show win0_4.index t 0 * 128 + 1 * o.val = o.val; rw [h]; omega

/-! ## The flat output array -/

/-- The flat output: at (window n, row, feature) the window function of window n of the flat input, the staged
    matrix read transposed back. -/
def flatOut (c : Dev nD) : S6400x64x128.Idx → EReal := fun i =>
  res (fun r f => (V m c main_v0 : S6400x64x128.Idx → EReal) (ix3 (i 0) r f))
    (fun o f => (m ((c : Thread nD τ).loc main_arg1) : S128x128.Idx → EReal) (ix2 o f))
    (fun o => (m ((c : Thread nD τ).loc main_arg2) : S128.Idx → EReal) (ix1 o))
    (fun o => (m ((c : Thread nD τ).loc main_arg3) : S128.Idx → EReal) (ix1 o))
    (fun o => (m ((c : Thread nD τ).loc main_arg4) : S128.Idx → EReal) (ix1 o)) (i 1) (i 2)

theorem flatOut_apply (c : Dev nD) (n : Fin 6400) (r : Fin 64) (o : Fin 128) :
    flatOut m c (ix3 n r o)
      = res (fun r f => (V m c main_v0 : S6400x64x128.Idx → EReal) (ix3 n r f))
          (fun o f => (m ((c : Thread nD τ).loc main_arg1) : S128x128.Idx → EReal) (ix2 o f))
          (fun o => (m ((c : Thread nD τ).loc main_arg2) : S128.Idx → EReal) (ix1 o))
          (fun o => (m ((c : Thread nD τ).loc main_arg3) : S128.Idx → EReal) (ix1 o))
          (fun o => (m ((c : Thread nD τ).loc main_arg4) : S128.Idx → EReal) (ix1 o)) r o := rfl

/-- What point t writes back is block t of the flat output. -/
theorem flushed_eq (c : Dev nD) (t : Fin cfg0.N) :
    (dats m 0 c).flushed 5 t = ((cfg0.win 5).blk t).view.read (Elt Ideal) (flatOut m c) := by
  show (cfg0.win 5).cut (grid0.coords t) ((dats m 0 c).after 5 t) = _
  rw [after0_5]
  funext j
  show out0_5 (iblk m c 0 t) (iblk m c 1 t) (iblk m c 2 t) (iblk m c 3 t) (iblk m c 4 t) j
    = flatOut m c (((cfg0.win 5).blk t).view.emb j)
  obtain ⟨w, r, o, rfl⟩ : ∃ (w : Fin 128) (r : Fin 64) (o : Fin 128), j = ix3 w r o := ⟨j 0, j 1, j 2, eq_ix3 j⟩
  obtain ⟨-, -, -, h0, h1, h2, -⟩ := idx_facts t
  have ht : t.val < 50 := lt_of_lt_of_eq t.isLt N_0
  have hlt : t.val * 128 + w.val < 6400 := by have := w.isLt; omega
  have he : ((cfg0.win 5).blk t).view.emb (ix3 w r o) = (ix3 ⟨t.val * 128 + w.val, hlt⟩ r o : S6400x64x128.Idx) := by
    funext a
    apply Fin.ext
    match a with
    | ⟨0, _⟩ => show win0_5.index t 0 * 128 + 1 * w.val = t.val * 128 + w.val; rw [h0]; omega
    | ⟨1, _⟩ => show win0_5.index t 1 * 64 + 1 * r.val = r.val; rw [h1]; omega
    | ⟨2, _⟩ => show win0_5.index t 2 * 128 + 1 * o.val = o.val; rw [h2]; omega
  rw [he, flatOut_apply, Cert.KernelIdeal.KerPay.out_apply]
  have e0 : (fun i f => (iblk m c 0 t : Vec Ideal S128x64x128 .f32) (ix3 w i f))
      = fun i f => (V m c main_v0 : S6400x64x128.Idx → EReal) (ix3 ⟨t.val * 128 + w.val, hlt⟩ i f) :=
    funext fun i => funext fun f => iblk0_apply m c t w i f ⟨t.val * 128 + w.val, hlt⟩ rfl
  have e1 : (fun o f => (iblk m c 1 t : Vec Ideal S128x128 .f32) (ix2 f o))
      = fun o f => (m ((c : Thread nD τ).loc main_arg1) : S128x128.Idx → EReal) (ix2 o f) :=
    funext fun o => funext fun f => (iblk1_apply m c t f o).trans (V_v1_apply m c f o)
  have e2 : (fun o => (iblk m c 2 t : Vec Ideal S128 .f32) (ix1 o)) = fun o => (m ((c : Thread nD τ).loc main_arg2) : S128.Idx → EReal) (ix1 o) :=
    funext fun o => iblk2_apply m c t o
  have e3 : (fun o => (iblk m c 3 t : Vec Ideal S128 .f32) (ix1 o)) = fun o => (m ((c : Thread nD τ).loc main_arg3) : S128.Idx → EReal) (ix1 o) :=
    funext fun o => iblk3_apply m c t o
  have e4 : (fun o => (iblk m c 4 t : Vec Ideal S128 .f32) (ix1 o)) = fun o => (m ((c : Thread nD τ).loc main_arg4) : S128.Idx → EReal) (ix1 o) :=
    funext fun o => iblk4_apply m c t o
  rw [e0, e1, e2, e3, e4]

/-- An index of the flat array is in point t's block iff each coordinate is in the block's range on its axis. -/
theorem mem_blk (t : Fin cfg0.N) (i : S6400x64x128.Idx) :
    i ∈ ((cfg0.win 5).blk t).view.set ↔ ∀ a : Fin 3, win0_5.index t a * S128x64x128.size a ≤ (i a).val ∧ (i a).val < win0_5.index t a * S128x64x128.size a + S128x64x128.size a := by
  show i ∈ ((View.whole main_v2).slice (win0_5.rect t)).set ↔ _
  rw [View.set_slice_whole, Rect.mem_set_unit]
  exact Iff.rfl

/-- Every index of the flat array lies in the block of the point that handles its window. -/
theorem cover (i : S6400x64x128.Idx) :
    ∃ t : Fin cfg0.N, (cfg0.win 5).flush t = true ∧ i ∈ ((cfg0.win 5).blk t).view.set := by
  have hi0 : (i 0).val < 6400 := (i 0).isLt
  have hi1 : (i 1).val < 64 := (i 1).isLt
  have hi2 : (i 2).val < 128 := (i 2).isLt
  have hN : cfg0.N = 50 := N_0
  refine ⟨⟨(i 0).val / 128, by rw [hN]; omega⟩, flush0_5 _, ?_⟩
  rw [mem_blk]
  obtain ⟨-, -, -, h0, h1, h2, -⟩ := idx_facts ⟨(i 0).val / 128, by rw [hN]; omega⟩
  intro a
  match a with
  | ⟨0, _⟩ => show win0_5.index _ (0 : Fin 3) * 128 ≤ (i 0).val ∧ (i 0).val < win0_5.index _ (0 : Fin 3) * 128 + 128; rw [h0]; show (i 0).val / 128 * 128 ≤ (i 0).val ∧ (i 0).val < (i 0).val / 128 * 128 + 128; omega
  | ⟨1, _⟩ => show win0_5.index _ (1 : Fin 3) * 64 ≤ (i 1).val ∧ (i 1).val < win0_5.index _ (1 : Fin 3) * 64 + 64; rw [h1]; omega
  | ⟨2, _⟩ => show win0_5.index _ (2 : Fin 3) * 128 ≤ (i 2).val ∧ (i 2).val < win0_5.index _ (2 : Fin 3) * 128 + 128; rw [h2]; omega

/-- The flat output array after the run. -/
theorem final (c : Dev nD) : (dats m 0 c).arrAt 5 cfg0.N = flatOut m c :=
  (dats m 0 c).arrAt_eq_of_cover 5 (flatOut m c) (fun t _ => flushed_eq m c t) cover

/-! ## The reshape after the region, and the run -/

/-- The flat output laid out as 32 × 200 windows is `resultArr` of the arguments. -/
theorem reshape_flatOut (c : Dev nD) :
    shapeCast S32x200x64x128 (flatOut m c) shapeCasts_S6400x64x128_S32x200x64x128
      = resultArr (m ((c : Thread nD τ).loc main_arg0)) (m ((c : Thread nD τ).loc main_arg1)) (m ((c : Thread nD τ).loc main_arg2))
          (m ((c : Thread nD τ).loc main_arg3)) (m ((c : Thread nD τ).loc main_arg4)) := by
  funext j
  obtain ⟨bb, t, r, o, rfl⟩ : ∃ (bb : Fin 32) (t : Fin 200) (r : Fin 64) (o : Fin 128), j = ix4 bb t r o :=
    ⟨j 0, j 1, j 2, j 3, eq_ix4 j⟩
  have hlt : bb.val * 200 + t.val < 6400 := by have := bb.isLt; have := t.isLt; omega
  rw [shapeCast_apply (flatOut m c) _ (ix4 bb t r o) (ix3 ⟨bb.val * 200 + t.val, hlt⟩ r o) (by
    rw [Shape.rowMajor_val_three, Shape.rowMajor_val_four]; rfl)]
  rw [flatOut_apply, resultArr_apply]
  have e0 : (fun r f => (V m c main_v0 : S6400x64x128.Idx → EReal) (ix3 ⟨bb.val * 200 + t.val, hlt⟩ r f))
      = fun r f => (m ((c : Thread nD τ).loc main_arg0) : S32x200x64x128.Idx → EReal) (ix4 bb t r f) :=
    funext fun r => funext fun f => V_v0_apply m c bb t r f ⟨bb.val * 200 + t.val, hlt⟩ rfl
  rw [e0]

/-- What the host reshape after the region leaves in the result buffer. -/
theorem out_v3 (c : Dev nD) :
    Pipeline.afterTail₀ cfgs (dats m) 0 (V0 m) [hostOps1] c main_v3
      = resultArr (m ((c : Thread nD τ).loc main_arg0)) (m ((c : Thread nD τ).loc main_arg1)) (m ((c : Thread nD τ).loc main_arg2))
          (m ((c : Thread nD τ).loc main_arg3)) (m ((c : Thread nD τ).loc main_arg4)) := by
  rw [← reshape_flatOut, ← final]
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.devRef .tc main_v2)
      = (dats m 0 c).arrAt 5 cfg0.N from Pipeline.withArrays_arr spec0 launch0.win.arr_inj c _ _ 5]
  rfl

/-- The run, read: the result buffer at `resultArr` of the arguments, the arguments unchanged. -/
theorem run : θ_run defs (onTc (τ := τ) (main (F := Ideal))) ⟨m, fun _ => 0, ρ⟩ fun r => ∀ c : Dev nD,
      r.2.mem ((c.tc : Thread nD τ).loc main_v3)
        = resultArr (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v3 (Pipeline.mem_restRefs_of main_v3 (by decide) (by decide))).trans (out_v3 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.KerValue

end
-- ==== Proof.RefTerm.lean ====
/-
  The reference's operations composed into the value they leave in the result buffer, cut into five stretches
  as functions of the arrays they start from: the rows centred and scaled (jnp's unbiased `std`, through the
  variance helper and its `where`), the softmax of the correlations, the affine map, the weighted average,
  the layer norm with its `relu`. The run (in another module) ends at `refOut` of the arguments.
-/
import proofs.«182105_j65403761983862_1_alg».proof.Proof.Gen.ReferenceIdeal

noncomputable section

namespace Cert.ReferenceIdeal.Terms

open Idealize.ShloMosaic Cert.ReferenceIdeal Cert.ReferenceIdeal.Gen

variable {F : FTy → Type} [FloatOps F]

/-- jnp's variance over the last axis with `ddof` taken off the divisor 128, kept as the `where` jnp wraps it
    in (the divisor positive, else NaN). -/
def rVarFn (x : FVec F S32x200x64x128 .f32) (ddof : IVec S_ 32) : FVec F S32x200x64x1 .f32 :=
  have cst : FVec F S_ .f32 := constant S_ .f32 0x00000000#32
  have v0 : FVec F S32x200x64 .f32 := Host.reduceAdd x cst reducesTo_S32x200x64x128_S32x200x64_d3 h_S_
  have v1 : FVec F S32x200x64x1 .f32 := broadcastInDim S32x200x64x1 ![0, 1, 2] bcast_S32x200x64_S32x200x64x1_0_1_2 v0
  have cst_0 : FVec F S_ .f32 := constant S_ .f32 0x43000000#32
  have v2 : FVec F S32x200x64x1 .f32 := broadcastInDim S32x200x64x1 ![] bcast_S_S32x200x64x1 cst_0
  have v3 : FVec F S32x200x64x1 .f32 := Host.divf v1 v2
  have v4 : FVec F S32x200x64x128 .f32 := broadcastInDim S32x200x64x128 ![0, 1, 2, 3] bcast_S32x200x64x1_S32x200x64x128_0_1_2_3 v3
  have v5 : FVec F S32x200x64x128 .f32 := subf x v4
  have v6 : FVec F S32x200x64x128 .f32 := mulf v5 v5
  have v7 : FVec F S_ .f32 := sitofp .f32 ddof
  have cst_1 : FVec F S_ .f32 := constant S_ .f32 0x43000000#32
  have v8 : FVec F S_ .f32 := subf cst_1 v7
  have cst_2 : FVec F S_ .f32 := constant S_ .f32 0x00000000#32
  have v9 : FVec F S32x200x64 .f32 := Host.reduceAdd v6 cst_2 reducesTo_S32x200x64x128_S32x200x64_d3 h_S_
  have v10 : FVec F S32x200x64x1 .f32 := broadcastInDim S32x200x64x1 ![0, 1, 2] bcast_S32x200x64_S32x200x64x1_0_1_2 v9
  have v11 : FVec F S32x200x64x1 .f32 := broadcastInDim S32x200x64x1 ![] bcast_S_S32x200x64x1 v8
  have v12 : FVec F S32x200x64x1 .f32 := Host.divf v10 v11
  have cst_3 : FVec F S_ .f32 := constant S_ .f32 0x00000000#32
  have v13 : IVec S_ 1 := cmpf .ogt v8 cst_3
  have cst_4 : FVec F S_ .f32 := constant S_ .f32 0x7FC00000#32
  have w0 : FVec F S_ .f32 := id cst_4
  have w1 : FVec F S32x200x64x1 .f32 := broadcastInDim S32x200x64x1 ![] bcast_S_S32x200x64x1 w0
  select (broadcastInDim S32x200x64x1 ![] bcast_S_S32x200x64x1 v13) v12 w1

/-- The rows centred and scaled (`%10`). -/
def rXn (x : FVec F S32x200x64x128 .f32) : FVec F S32x200x64x128 .f32 :=
  have cst : FVec F S_ .f32 := constant S_ .f32 0x00000000#32
  have v0 : FVec F S32x200x64 .f32 := Host.reduceAdd x cst reducesTo_S32x200x64x128_S32x200x64_d3 h_S_
  have v1 : FVec F S32x200x64x1 .f32 := broadcastInDim S32x200x64x1 ![0, 1, 2] bcast_S32x200x64_S32x200x64x1_0_1_2 v0
  have cst_0 : FVec F S_ .f32 := constant S_ .f32 0x43000000#32
  have v2 : FVec F S32x200x64x1 .f32 := broadcastInDim S32x200x64x1 ![] bcast_S_S32x200x64x1 cst_0
  have v3 : FVec F S32x200x64x1 .f32 := Host.divf v1 v2
  have v4 : FVec F S32x200x64x128 .f32 := broadcastInDim S32x200x64x128 ![0, 1, 2, 3] bcast_S32x200x64x1_S32x200x64x128_0_1_2_3 v3
  have v5 : FVec F S32x200x64x128 .f32 := subf x v4
  have c : IVec S_ 32 := constantI S_ 32 1#32
  have v6 : FVec F S32x200x64x1 .f32 := Host.sqrt (rVarFn x c)
  have cst_1 : FVec F S_ .f32 := constant S_ .f32 0x358637BD#32
  have v7 : FVec F S32x200x64x1 .f32 := broadcastInDim S32x200x64x1 ![] bcast_S_S32x200x64x1 cst_1
  have v8 : FVec F S32x200x64x1 .f32 := addf v6 v7
  have v9 : FVec F S32x200x64x128 .f32 := broadcastInDim S32x200x64x128 ![0, 1, 2, 3] bcast_S32x200x64x1_S32x200x64x128_0_1_2_3 v8
  Host.divf v5 v9

/-- The softmax over the last axis of the scaled rows' correlations (`%24` from `%10`). -/
def rWgt (v10 : FVec F S32x200x64x128 .f32) : FVec F S32x200x64x64 .f32 :=
  have v11 : FVec F S32x200x64x64 .f32 := Host.dotGeneral dot_S32x200x64x128_S32x200x64x128_S32x200x64x64_3_3_2_2_01_01 none v10 v10
  have cst_2 : FVec F S_ .f32 := constant S_ .f32 0x43000000#32
  have v12 : FVec F S32x200x64x64 .f32 := broadcastInDim S32x200x64x64 ![] bcast_S_S32x200x64x64 cst_2
  have v13 : FVec F S32x200x64x64 .f32 := Host.divf v11 v12
  have cst_3 : FVec F S_ .f32 := constant S_ .f32 0xFF800000#32
  have v14 : FVec F S32x200x64 .f32 := Host.reduce FloatOps.maximumf v13 cst_3 reducesTo_S32x200x64x64_S32x200x64_d3 h_S_
  have cst_4 : FVec F S_ .f32 := constant S_ .f32 0xFF800000#32
  have v15 : FVec F S32x200x64 .f32 := broadcastInDim S32x200x64 ![] bcast_S_S32x200x64 cst_4
  have v16 : FVec F S32x200x64 .f32 := maximumf v15 v14
  have v17 : FVec F S32x200x64x1 .f32 := broadcastInDim S32x200x64x1 ![0, 1, 2] bcast_S32x200x64_S32x200x64x1_0_1_2 v16
  have v18 : FVec F S32x200x64x64 .f32 := broadcastInDim S32x200x64x64 ![0, 1, 2, 3] bcast_S32x200x64x1_S32x200x64x64_0_1_2_3 v17
  have v19 : FVec F S32x200x64x64 .f32 := subf v13 v18
  have v20 : FVec F S32x200x64x64 .f32 := Host.exp v19
  have cst_5 : FVec F S_ .f32 := constant S_ .f32 0x00000000#32
  have v21 : FVec F S32x200x64 .f32 := Host.reduceAdd v20 cst_5 reducesTo_S32x200x64x64_S32x200x64_d3 h_S_
  have v22 : FVec F S32x200x64x1 .f32 := broadcastInDim S32x200x64x1 ![0, 1, 2] bcast_S32x200x64_S32x200x64x1_0_1_2 v21
  have v23 : FVec F S32x200x64x64 .f32 := broadcastInDim S32x200x64x64 ![0, 1, 2, 3] bcast_S32x200x64x1_S32x200x64x64_0_1_2_3 v22
  Host.divf v20 v23

/-- The rows through the affine map (`%28`). -/
def rLin (x : FVec F S32x200x64x128 .f32) (W : FVec F S128x128 .f32) (b : FVec F S128 .f32) : FVec F S32x200x64x128 .f32 :=
  have v25 : FVec F S32x200x64x128 .f32 := Host.dotGeneral dot_S32x200x64x128_S128x128_S32x200x64x128_3_1_012_0_n_n none x W
  have v26 : FVec F S1x1x1x128 .f32 := broadcastInDim S1x1x1x128 ![3] bcast_S128_S1x1x1x128_3 b
  have v27 : FVec F S32x200x64x128 .f32 := broadcastInDim S32x200x64x128 ![0, 1, 2, 3] bcast_S1x1x1x128_S32x200x64x128_0_1_2_3 v26
  addf v25 v27

/-- The weights times the mapped rows, window by window (`%29`). -/
def rAgg (v24 : FVec F S32x200x64x64 .f32) (v28 : FVec F S32x200x64x128 .f32) : FVec F S32x200x64x128 .f32 :=
  Host.dotGeneral dot_S32x200x64x64_S32x200x64x128_S32x200x64x128_3_2_2_3_01_01 none v24 v28

/-- The layer norm, the scale and shift, and the clamp at zero (`%48` from `%29`). -/
def rLN (v29 : FVec F S32x200x64x128 .f32) (g be : FVec F S128 .f32) : FVec F S32x200x64x128 .f32 :=
  have cst_6 : FVec F S_ .f32 := constant S_ .f32 0x00000000#32
  have v30 : FVec F S32x200x64 .f32 := Host.reduceAdd v29 cst_6 reducesTo_S32x200x64x128_S32x200x64_d3 h_S_
  have v31 : FVec F S32x200x64x1 .f32 := broadcastInDim S32x200x64x1 ![0, 1, 2] bcast_S32x200x64_S32x200x64x1_0_1_2 v30
  have cst_7 : FVec F S_ .f32 := constant S_ .f32 0x43000000#32
  have v32 : FVec F S32x200x64x1 .f32 := broadcastInDim S32x200x64x1 ![] bcast_S_S32x200x64x1 cst_7
  have v33 : FVec F S32x200x64x1 .f32 := Host.divf v31 v32
  have c_8 : IVec S_ 32 := constantI S_ 32 0#32
  have v34 : FVec F S32x200x64x1 .f32 := rVarFn v29 c_8
  have v35 : FVec F S32x200x64x128 .f32 := broadcastInDim S32x200x64x128 ![0, 1, 2, 3] bcast_S32x200x64x1_S32x200x64x128_0_1_2_3 v33
  have v36 : FVec F S32x200x64x128 .f32 := subf v29 v35
  have cst_9 : FVec F S_ .f32 := constant S_ .f32 0x3727C5AC#32
  have v37 : FVec F S32x200x64x1 .f32 := broadcastInDim S32x200x64x1 ![] bcast_S_S32x200x64x1 cst_9
  have v38 : FVec F S32x200x64x1 .f32 := addf v34 v37
  have v39 : FVec F S32x200x64x1 .f32 := Host.rsqrt v38
  have v40 : FVec F S32x200x64x128 .f32 := broadcastInDim S32x200x64x128 ![0, 1, 2, 3] bcast_S32x200x64x1_S32x200x64x128_0_1_2_3 v39
  have v41 : FVec F S32x200x64x128 .f32 := mulf v36 v40
  have v42 : FVec F S1x1x1x128 .f32 := broadcastInDim S1x1x1x128 ![3] bcast_S128_S1x1x1x128_3 g
  have v43 : FVec F S32x200x64x128 .f32 := broadcastInDim S32x200x64x128 ![0, 1, 2, 3] bcast_S1x1x1x128_S32x200x64x128_0_1_2_3 v42
  have v44 : FVec F S32x200x64x128 .f32 := mulf v41 v43
  have v45 : FVec F S1x1x1x128 .f32 := broadcastInDim S1x1x1x128 ![3] bcast_S128_S1x1x1x128_3 be
  have v46 : FVec F S32x200x64x128 .f32 := broadcastInDim S32x200x64x128 ![0, 1, 2, 3] bcast_S1x1x1x128_S32x200x64x128_0_1_2_3 v45
  have v47 : FVec F S32x200x64x128 .f32 := addf v44 v46
  have r_cst : FVec F S_ .f32 := constant S_ .f32 0x00000000#32
  have r0 : FVec F S32x200x64x128 .f32 := broadcastInDim S32x200x64x128 ![] bcast_S_S32x200x64x128 r_cst
  maximumf v47 r0

/-- What the reference leaves in its result buffer, as a function of the five arguments. -/
def refOut (x : FVec F S32x200x64x128 .f32) (W : FVec F S128x128 .f32) (b g be : FVec F S128 .f32) : FVec F S32x200x64x128 .f32 :=
  rLN (rAgg (rWgt (rXn x)) (rLin x W b)) g be

end Cert.ReferenceIdeal.Terms

end
-- ==== Proof.RefRun.lean ====
/-
  The reference's @main as the list of its host operations, the helper functions jax outlined (the variance
  with its `where`, twice; the standard deviation over it; the `relu`) written out where they are called, each over
  its own call's buffers; and its run read back: every weakly fair execution ends with the result buffer at
  `refOut` of the five argument arrays, which end as they began.
-/
import proofs.«182105_j65403761983862_1_alg».proof.Proof.RefTerm
import Idealize.ShloMosaic.Lib.StableHlo.Run

noncomputable section

namespace Cert.ReferenceIdeal.RefRun

open Cert.ReferenceIdeal Cert.ReferenceIdeal.Gen Cert.ReferenceIdeal.Terms
open Idealize.ShloMosaic Idealize.ShloMosaic.TcCoe Idealize.SL.Sem Idealize.ShloMosaic.StableHlo

variable {F : FTy → Type} [FloatOps F]

/-- @main's operations in order, the calls written out. -/
abbrev ops : List (HloOp τ sig (Elt F)) :=
  [
    nullary main_cst (constant S_ .f32 0x00000000#32),
    binary main_arg0 main_cst main_v0 ((fun x v => Host.reduceAdd x v reducesTo_S32x200x64x128_S32x200x64_d3 h_S_) : (⟨S32x200x64x128, .f32⟩ : BufTy).Contents (Elt F) → (⟨S_, .f32⟩ : BufTy).Contents (Elt F) → (⟨S32x200x64, .f32⟩ : BufTy).Contents (Elt F)),
    unary main_v0 main_v1 (broadcastInDim S32x200x64x1 ![0, 1, 2] bcast_S32x200x64_S32x200x64x1_0_1_2 : (⟨S32x200x64, .f32⟩ : BufTy).Contents (Elt F) → (⟨S32x200x64x1, .f32⟩ : BufTy).Contents (Elt F)),
    nullary main_cst_0 (constant S_ .f32 0x43000000#32),
    unary main_cst_0 main_v2 (broadcastInDim S32x200x64x1 ![] bcast_S_S32x200x64x1 : (⟨S_, .f32⟩ : BufTy).Contents (Elt F) → (⟨S32x200x64x1, .f32⟩ : BufTy).Contents (Elt F)),
    binary main_v1 main_v2 main_v3 (Host.divf : (⟨S32x200x64x1, .f32⟩ : BufTy).Contents (Elt F) → (⟨S32x200x64x1, .f32⟩ : BufTy).Contents (Elt F) → (⟨S32x200x64x1, .f32⟩ : BufTy).Contents (Elt F)),
    unary main_v3 main_v4 (broadcastInDim S32x200x64x128 ![0, 1, 2, 3] bcast_S32x200x64x1_S32x200x64x128_0_1_2_3 : (⟨S32x200x64x1, .f32⟩ : BufTy).Contents (Elt F) → (⟨S32x200x64x128, .f32⟩ : BufTy).Contents (Elt F)),
    binary main_arg0 main_v4 main_v5 (subf : (⟨S32x200x64x128, .f32⟩ : BufTy).Contents (Elt F) → (⟨S32x200x64x128, .f32⟩ : BufTy).Contents (Elt F) → (⟨S32x200x64x128, .f32⟩ : BufTy).Contents (Elt F)),
    nullary main_c (constantI S_ 32 1#32),
    TRef.nullary main_call0.call0.cst (constant S_ .f32 0x00000000#32),
    TRef.binary (.of main_arg0) main_call0.call0.cst main_call0.call0.v0 (fun x v => Host.reduceAdd x v reducesTo_S32x200x64x128_S32x200x64_d3 h_S_),
    TRef.unary main_call0.call0.v0 main_call0.call0.v1 (broadcastInDim S32x200x64x1 ![0, 1, 2] bcast_S32x200x64_S32x200x64x1_0_1_2),
    TRef.nullary main_call0.call0.cst_0 (constant S_ .f32 0x43000000#32),
    TRef.unary main_call0.call0.cst_0 main_call0.call0.v2 (broadcastInDim S32x200x64x1 ![] bcast_S_S32x200x64x1),
    TRef.binary main_call0.call0.v1 main_call0.call0.v2 main_call0.call0.v3 Host.divf,
    TRef.unary main_call0.call0.v3 main_call0.call0.v4 (broadcastInDim S32x200x64x128 ![0, 1, 2, 3] bcast_S32x200x64x1_S32x200x64x128_0_1_2_3),
    TRef.binary (.of main_arg0) main_call0.call0.v4 main_call0.call0.v5 subf,
    TRef.binary main_call0.call0.v5 main_call0.call0.v5 main_call0.call0.v6 mulf,
    TRef.unary (.of main_c) main_call0.call0.v7 (sitofp .f32),
    TRef.nullary main_call0.call0.cst_1 (constant S_ .f32 0x43000000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S32x200x64x128_S32x200x64_d3 h_S_),
    TRef.unary main_call0.call0.v9 main_call0.call0.v10 (broadcastInDim S32x200x64x1 ![0, 1, 2] bcast_S32x200x64_S32x200x64x1_0_1_2),
    TRef.unary main_call0.call0.v8 main_call0.call0.v11 (broadcastInDim S32x200x64x1 ![] bcast_S_S32x200x64x1),
    TRef.binary main_call0.call0.v10 main_call0.call0.v11 main_call0.call0.v12 Host.divf,
    TRef.nullary main_call0.call0.cst_3 (constant S_ .f32 0x00000000#32),
    TRef.binary main_call0.call0.v8 main_call0.call0.cst_3 main_call0.call0.v13 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S32x200x64x1 ![] bcast_S_S32x200x64x1),
    TRef.ternary main_call0.call0.v13 main_call0.call0.v12 main_call0.call0.call0.v1 main_call0.call0.call0.v2 (fun p a b => select (broadcastInDim S32x200x64x1 ![] bcast_S_S32x200x64x1 p) a b),
    TRef.unary main_call0.call0.call0.v2 main_call0.v1 Host.sqrt,
    nullary main_cst_1 (constant S_ .f32 0x358637BD#32),
    unary main_cst_1 main_v7 (broadcastInDim S32x200x64x1 ![] bcast_S_S32x200x64x1 : (⟨S_, .f32⟩ : BufTy).Contents (Elt F) → (⟨S32x200x64x1, .f32⟩ : BufTy).Contents (Elt F)),
    binary main_v6 main_v7 main_v8 (addf : (⟨S32x200x64x1, .f32⟩ : BufTy).Contents (Elt F) → (⟨S32x200x64x1, .f32⟩ : BufTy).Contents (Elt F) → (⟨S32x200x64x1, .f32⟩ : BufTy).Contents (Elt F)),
    unary main_v8 main_v9 (broadcastInDim S32x200x64x128 ![0, 1, 2, 3] bcast_S32x200x64x1_S32x200x64x128_0_1_2_3 : (⟨S32x200x64x1, .f32⟩ : BufTy).Contents (Elt F) → (⟨S32x200x64x128, .f32⟩ : BufTy).Contents (Elt F)),
    binary main_v5 main_v9 main_v10 (Host.divf : (⟨S32x200x64x128, .f32⟩ : BufTy).Contents (Elt F) → (⟨S32x200x64x128, .f32⟩ : BufTy).Contents (Elt F) → (⟨S32x200x64x128, .f32⟩ : BufTy).Contents (Elt F)),
    binary main_v10 main_v10 main_v11 ((fun l r => Host.dotGeneral dot_S32x200x64x128_S32x200x64x128_S32x200x64x64_3_3_2_2_01_01 none l r) : (⟨S32x200x64x128, .f32⟩ : BufTy).Contents (Elt F) → (⟨S32x200x64x128, .f32⟩ : BufTy).Contents (Elt F) → (⟨S32x200x64x64, .f32⟩ : BufTy).Contents (Elt F)),
    nullary main_cst_2 (constant S_ .f32 0x43000000#32),
    unary main_cst_2 main_v12 (broadcastInDim S32x200x64x64 ![] bcast_S_S32x200x64x64 : (⟨S_, .f32⟩ : BufTy).Contents (Elt F) → (⟨S32x200x64x64, .f32⟩ : BufTy).Contents (Elt F)),
    binary main_v11 main_v12 main_v13 (Host.divf : (⟨S32x200x64x64, .f32⟩ : BufTy).Contents (Elt F) → (⟨S32x200x64x64, .f32⟩ : BufTy).Contents (Elt F) → (⟨S32x200x64x64, .f32⟩ : BufTy).Contents (Elt F)),
    nullary main_cst_3 (constant S_ .f32 0xFF800000#32),
    binary main_v13 main_cst_3 main_v14 ((fun x v => Host.reduce FloatOps.maximumf x v reducesTo_S32x200x64x64_S32x200x64_d3 h_S_) : (⟨S32x200x64x64, .f32⟩ : BufTy).Contents (Elt F) → (⟨S_, .f32⟩ : BufTy).Contents (Elt F) → (⟨S32x200x64, .f32⟩ : BufTy).Contents (Elt F)),
    nullary main_cst_4 (constant S_ .f32 0xFF800000#32),
    unary main_cst_4 main_v15 (broadcastInDim S32x200x64 ![] bcast_S_S32x200x64 : (⟨S_, .f32⟩ : BufTy).Contents (Elt F) → (⟨S32x200x64, .f32⟩ : BufTy).Contents (Elt F)),
    binary main_v15 main_v14 main_v16 (maximumf : (⟨S32x200x64, .f32⟩ : BufTy).Contents (Elt F) → (⟨S32x200x64, .f32⟩ : BufTy).Contents (Elt F) → (⟨S32x200x64, .f32⟩ : BufTy).Contents (Elt F)),
    unary main_v16 main_v17 (broadcastInDim S32x200x64x1 ![0, 1, 2] bcast_S32x200x64_S32x200x64x1_0_1_2 : (⟨S32x200x64, .f32⟩ : BufTy).Contents (Elt F) → (⟨S32x200x64x1, .f32⟩ : BufTy).Contents (Elt F)),
    unary main_v17 main_v18 (broadcastInDim S32x200x64x64 ![0, 1, 2, 3] bcast_S32x200x64x1_S32x200x64x64_0_1_2_3 : (⟨S32x200x64x1, .f32⟩ : BufTy).Contents (Elt F) → (⟨S32x200x64x64, .f32⟩ : BufTy).Contents (Elt F)),
    binary main_v13 main_v18 main_v19 (subf : (⟨S32x200x64x64, .f32⟩ : BufTy).Contents (Elt F) → (⟨S32x200x64x64, .f32⟩ : BufTy).Contents (Elt F) → (⟨S32x200x64x64, .f32⟩ : BufTy).Contents (Elt F)),
    unary main_v19 main_v20 (Host.exp : (⟨S32x200x64x64, .f32⟩ : BufTy).Contents (Elt F) → (⟨S32x200x64x64, .f32⟩ : BufTy).Contents (Elt F)),
    nullary main_cst_5 (constant S_ .f32 0x00000000#32),
    binary main_v20 main_cst_5 main_v21 ((fun x v => Host.reduceAdd x v reducesTo_S32x200x64x64_S32x200x64_d3 h_S_) : (⟨S32x200x64x64, .f32⟩ : BufTy).Contents (Elt F) → (⟨S_, .f32⟩ : BufTy).Contents (Elt F) → (⟨S32x200x64, .f32⟩ : BufTy).Contents (Elt F)),
    unary main_v21 main_v22 (broadcastInDim S32x200x64x1 ![0, 1, 2] bcast_S32x200x64_S32x200x64x1_0_1_2 : (⟨S32x200x64, .f32⟩ : BufTy).Contents (Elt F) → (⟨S32x200x64x1, .f32⟩ : BufTy).Contents (Elt F)),
    unary main_v22 main_v23 (broadcastInDim S32x200x64x64 ![0, 1, 2, 3] bcast_S32x200x64x1_S32x200x64x64_0_1_2_3 : (⟨S32x200x64x1, .f32⟩ : BufTy).Contents (Elt F) → (⟨S32x200x64x64, .f32⟩ : BufTy).Contents (Elt F)),
    binary main_v20 main_v23 main_v24 (Host.divf : (⟨S32x200x64x64, .f32⟩ : BufTy).Contents (Elt F) → (⟨S32x200x64x64, .f32⟩ : BufTy).Contents (Elt F) → (⟨S32x200x64x64, .f32⟩ : BufTy).Contents (Elt F)),
    binary main_arg0 main_arg1 main_v25 ((fun l r => Host.dotGeneral dot_S32x200x64x128_S128x128_S32x200x64x128_3_1_012_0_n_n none l r) : (⟨S32x200x64x128, .f32⟩ : BufTy).Contents (Elt F) → (⟨S128x128, .f32⟩ : BufTy).Contents (Elt F) → (⟨S32x200x64x128, .f32⟩ : BufTy).Contents (Elt F)),
    unary main_arg2 main_v26 (broadcastInDim S1x1x1x128 ![3] bcast_S128_S1x1x1x128_3 : (⟨S128, .f32⟩ : BufTy).Contents (Elt F) → (⟨S1x1x1x128, .f32⟩ : BufTy).Contents (Elt F)),
    unary main_v26 main_v27 (broadcastInDim S32x200x64x128 ![0, 1, 2, 3] bcast_S1x1x1x128_S32x200x64x128_0_1_2_3 : (⟨S1x1x1x128, .f32⟩ : BufTy).Contents (Elt F) → (⟨S32x200x64x128, .f32⟩ : BufTy).Contents (Elt F)),
    binary main_v25 main_v27 main_v28 (addf : (⟨S32x200x64x128, .f32⟩ : BufTy).Contents (Elt F) → (⟨S32x200x64x128, .f32⟩ : BufTy).Contents (Elt F) → (⟨S32x200x64x128, .f32⟩ : BufTy).Contents (Elt F)),
    binary main_v24 main_v28 main_v29 ((fun l r => Host.dotGeneral dot_S32x200x64x64_S32x200x64x128_S32x200x64x128_3_2_2_3_01_01 none l r) : (⟨S32x200x64x64, .f32⟩ : BufTy).Contents (Elt F) → (⟨S32x200x64x128, .f32⟩ : BufTy).Contents (Elt F) → (⟨S32x200x64x128, .f32⟩ : BufTy).Contents (Elt F)),
    nullary main_cst_6 (constant S_ .f32 0x00000000#32),
    binary main_v29 main_cst_6 main_v30 ((fun x v => Host.reduceAdd x v reducesTo_S32x200x64x128_S32x200x64_d3 h_S_) : (⟨S32x200x64x128, .f32⟩ : BufTy).Contents (Elt F) → (⟨S_, .f32⟩ : BufTy).Contents (Elt F) → (⟨S32x200x64, .f32⟩ : BufTy).Contents (Elt F)),
    unary main_v30 main_v31 (broadcastInDim S32x200x64x1 ![0, 1, 2] bcast_S32x200x64_S32x200x64x1_0_1_2 : (⟨S32x200x64, .f32⟩ : BufTy).Contents (Elt F) → (⟨S32x200x64x1, .f32⟩ : BufTy).Contents (Elt F)),
    nullary main_cst_7 (constant S_ .f32 0x43000000#32),
    unary main_cst_7 main_v32 (broadcastInDim S32x200x64x1 ![] bcast_S_S32x200x64x1 : (⟨S_, .f32⟩ : BufTy).Contents (Elt F) → (⟨S32x200x64x1, .f32⟩ : BufTy).Contents (Elt F)),
    binary main_v31 main_v32 main_v33 (Host.divf : (⟨S32x200x64x1, .f32⟩ : BufTy).Contents (Elt F) → (⟨S32x200x64x1, .f32⟩ : BufTy).Contents (Elt F) → (⟨S32x200x64x1, .f32⟩ : BufTy).Contents (Elt F)),
    nullary main_c_8 (constantI S_ 32 0#32),
    TRef.nullary main_call1.cst (constant S_ .f32 0x00000000#32),
    TRef.binary (.of main_v29) main_call1.cst main_call1.v0 (fun x v => Host.reduceAdd x v reducesTo_S32x200x64x128_S32x200x64_d3 h_S_),
    TRef.unary main_call1.v0 main_call1.v1 (broadcastInDim S32x200x64x1 ![0, 1, 2] bcast_S32x200x64_S32x200x64x1_0_1_2),
    TRef.nullary main_call1.cst_0 (constant S_ .f32 0x43000000#32),
    TRef.unary main_call1.cst_0 main_call1.v2 (broadcastInDim S32x200x64x1 ![] bcast_S_S32x200x64x1),
    TRef.binary main_call1.v1 main_call1.v2 main_call1.v3 Host.divf,
    TRef.unary main_call1.v3 main_call1.v4 (broadcastInDim S32x200x64x128 ![0, 1, 2, 3] bcast_S32x200x64x1_S32x200x64x128_0_1_2_3),
    TRef.binary (.of main_v29) main_call1.v4 main_call1.v5 subf,
    TRef.binary main_call1.v5 main_call1.v5 main_call1.v6 mulf,
    TRef.unary (.of main_c_8) main_call1.v7 (sitofp .f32),
    TRef.nullary main_call1.cst_1 (constant S_ .f32 0x43000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S32x200x64x128_S32x200x64_d3 h_S_),
    TRef.unary main_call1.v9 main_call1.v10 (broadcastInDim S32x200x64x1 ![0, 1, 2] bcast_S32x200x64_S32x200x64x1_0_1_2),
    TRef.unary main_call1.v8 main_call1.v11 (broadcastInDim S32x200x64x1 ![] bcast_S_S32x200x64x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S32x200x64x1 ![] bcast_S_S32x200x64x1),
    TRef.ternary main_call1.v13 main_call1.v12 main_call1.call0.v1 main_call1.call0.v2 (fun p a b => select (broadcastInDim S32x200x64x1 ![] bcast_S_S32x200x64x1 p) a b),
    unary main_v33 main_v35 (broadcastInDim S32x200x64x128 ![0, 1, 2, 3] bcast_S32x200x64x1_S32x200x64x128_0_1_2_3 : (⟨S32x200x64x1, .f32⟩ : BufTy).Contents (Elt F) → (⟨S32x200x64x128, .f32⟩ : BufTy).Contents (Elt F)),
    binary main_v29 main_v35 main_v36 (subf : (⟨S32x200x64x128, .f32⟩ : BufTy).Contents (Elt F) → (⟨S32x200x64x128, .f32⟩ : BufTy).Contents (Elt F) → (⟨S32x200x64x128, .f32⟩ : BufTy).Contents (Elt F)),
    nullary main_cst_9 (constant S_ .f32 0x3727C5AC#32),
    unary main_cst_9 main_v37 (broadcastInDim S32x200x64x1 ![] bcast_S_S32x200x64x1 : (⟨S_, .f32⟩ : BufTy).Contents (Elt F) → (⟨S32x200x64x1, .f32⟩ : BufTy).Contents (Elt F)),
    binary main_v34 main_v37 main_v38 (addf : (⟨S32x200x64x1, .f32⟩ : BufTy).Contents (Elt F) → (⟨S32x200x64x1, .f32⟩ : BufTy).Contents (Elt F) → (⟨S32x200x64x1, .f32⟩ : BufTy).Contents (Elt F)),
    unary main_v38 main_v39 (Host.rsqrt : (⟨S32x200x64x1, .f32⟩ : BufTy).Contents (Elt F) → (⟨S32x200x64x1, .f32⟩ : BufTy).Contents (Elt F)),
    unary main_v39 main_v40 (broadcastInDim S32x200x64x128 ![0, 1, 2, 3] bcast_S32x200x64x1_S32x200x64x128_0_1_2_3 : (⟨S32x200x64x1, .f32⟩ : BufTy).Contents (Elt F) → (⟨S32x200x64x128, .f32⟩ : BufTy).Contents (Elt F)),
    binary main_v36 main_v40 main_v41 (mulf : (⟨S32x200x64x128, .f32⟩ : BufTy).Contents (Elt F) → (⟨S32x200x64x128, .f32⟩ : BufTy).Contents (Elt F) → (⟨S32x200x64x128, .f32⟩ : BufTy).Contents (Elt F)),
    unary main_arg3 main_v42 (broadcastInDim S1x1x1x128 ![3] bcast_S128_S1x1x1x128_3 : (⟨S128, .f32⟩ : BufTy).Contents (Elt F) → (⟨S1x1x1x128, .f32⟩ : BufTy).Contents (Elt F)),
    unary main_v42 main_v43 (broadcastInDim S32x200x64x128 ![0, 1, 2, 3] bcast_S1x1x1x128_S32x200x64x128_0_1_2_3 : (⟨S1x1x1x128, .f32⟩ : BufTy).Contents (Elt F) → (⟨S32x200x64x128, .f32⟩ : BufTy).Contents (Elt F)),
    binary main_v41 main_v43 main_v44 (mulf : (⟨S32x200x64x128, .f32⟩ : BufTy).Contents (Elt F) → (⟨S32x200x64x128, .f32⟩ : BufTy).Contents (Elt F) → (⟨S32x200x64x128, .f32⟩ : BufTy).Contents (Elt F)),
    unary main_arg4 main_v45 (broadcastInDim S1x1x1x128 ![3] bcast_S128_S1x1x1x128_3 : (⟨S128, .f32⟩ : BufTy).Contents (Elt F) → (⟨S1x1x1x128, .f32⟩ : BufTy).Contents (Elt F)),
    unary main_v45 main_v46 (broadcastInDim S32x200x64x128 ![0, 1, 2, 3] bcast_S1x1x1x128_S32x200x64x128_0_1_2_3 : (⟨S1x1x1x128, .f32⟩ : BufTy).Contents (Elt F) → (⟨S32x200x64x128, .f32⟩ : BufTy).Contents (Elt F)),
    binary main_v44 main_v46 main_v47 (addf : (⟨S32x200x64x128, .f32⟩ : BufTy).Contents (Elt F) → (⟨S32x200x64x128, .f32⟩ : BufTy).Contents (Elt F) → (⟨S32x200x64x128, .f32⟩ : BufTy).Contents (Elt F)),
    TRef.nullary main_call2.cst (constant S_ .f32 0x00000000#32),
    TRef.unary main_call2.cst main_call2.v0 (broadcastInDim S32x200x64x128 ![] bcast_S_S32x200x64x128),
    TRef.binary (.of main_v47) main_call2.v0 main_call2.v1 maximumf ]

set_option maxRecDepth 4096 in
set_option maxHeartbeats 20000000 in
/-- @main is that straight line: the helpers' definitions unfolded at their calls, the sequencing reassociated. -/
theorem main_eq (c : Dev nD) : main (F := F) c = seq ops := by
  simp only [main, main_part0, main_part1, fn_std.body, fn_var.body, fn_var_0.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
set_option maxHeartbeats 4000000 in
/-- The fold of the operations at the result buffer is `refOut` of the arguments. -/
theorem out_eq (V : Valuation τ sig (Elt F)) :
    after ops V (main_v48 : DevRef τ sig)
      = refOut (V (main_arg0 : DevRef τ sig)) (V (main_arg1 : DevRef τ sig)) (V (main_arg2 : DevRef τ sig))
          (V (main_arg3 : DevRef τ sig)) (V (main_arg4 : DevRef τ sig)) := by
  after_results_simp
  rfl

set_option maxRecDepth 8192 in
theorem arg0_eq (V : Valuation τ sig (Elt F)) : after ops V (main_arg0 : DevRef τ sig) = V (main_arg0 : DevRef τ sig) := by
  after_results_simp
set_option maxRecDepth 8192 in
theorem arg1_eq (V : Valuation τ sig (Elt F)) : after ops V (main_arg1 : DevRef τ sig) = V (main_arg1 : DevRef τ sig) := by
  after_results_simp
set_option maxRecDepth 8192 in
theorem arg2_eq (V : Valuation τ sig (Elt F)) : after ops V (main_arg2 : DevRef τ sig) = V (main_arg2 : DevRef τ sig) := by
  after_results_simp
set_option maxRecDepth 8192 in
theorem arg3_eq (V : Valuation τ sig (Elt F)) : after ops V (main_arg3 : DevRef τ sig) = V (main_arg3 : DevRef τ sig) := by
  after_results_simp
set_option maxRecDepth 8192 in
theorem arg4_eq (V : Valuation τ sig (Elt F)) : after ops V (main_arg4 : DevRef τ sig) = V (main_arg4 : DevRef τ sig) := by
  after_results_simp

/-- On every device, from any memory with zero counters: every weakly fair execution of @main terminates with the
    result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48)
        = refOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v48).trans (out_eq _), (h c main_arg0).trans (arg0_eq _),
      (h c main_arg1).trans (arg1_eq _), (h c main_arg2).trans (arg2_eq _), (h c main_arg3).trans (arg3_eq _),
      (h c main_arg4).trans (arg4_eq _)⟩)
    (run_seq scopedRefs_eq scopedSems_eq defs main (fun _ => ops) main_eq (fun _ => ops_sub) m ρ)

end Cert.ReferenceIdeal.RefRun

end
-- ==== Proof.RefVar.lean ====
import proofs.«182105_j65403761983862_1_alg».proof.Proof.Spec
import proofs.«182105_j65403761983862_1_alg».proof.Proof.RefTerm
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.ReferenceIdeal.RefVar

open Idealize.ShloMosaic Idealize.ShloMosaic.ValueIdx Cert.ReferenceIdeal Cert.ReferenceIdeal.Gen Cert.ReferenceIdeal.Terms Cert.GraphCorr

/-- The sum of a row's 128 entries, kept as a unit last axis. -/
private theorem rowSum_keep (v : FVec Ideal S32x200x64x128 .f32) (bb : Fin 32) (t : Fin 200) (i : Fin 64) (u : Fin 1) :
    broadcastInDim S32x200x64x1 ![0, 1, 2] bcast_S32x200x64_S32x200x64x1_0_1_2
      (Host.reduceAdd (F := Ideal) v (constant (F := Ideal) S_ .f32 0x00000000#32) reducesTo_S32x200x64x128_S32x200x64_d3 h_S_)
      (ix4 bb t i u) = ∑ f : Fin 128, v (ix4 bb t i f) := by
  rw [broadcastInDim_apply _ _ _ _ (ix3 bb t i) (fun a => match a with | ⟨0, _⟩ => rfl | ⟨1, _⟩ => rfl | ⟨2, _⟩ => rfl)]
  rw [hostReduceAdd_apply]
  rw [Ideal.hostReduceAdd_single reducesTo_S32x200x64x128_S32x200x64_d3 (by decide)]
  rw [constant_apply, Ideal.ofBits_zero_f32, zero_add]
  exact Finset.sum_congr rfl fun k _ => congrArg v (funext fun a =>
    match a with | ⟨0, _⟩ => rfl | ⟨1, _⟩ => rfl | ⟨2, _⟩ => rfl | ⟨3, _⟩ => rfl)

/-- A column of per-row values spread back over the 128 features reads the row's value. -/
private theorem spread_apply (w : FVec Ideal S32x200x64x1 .f32) (bb : Fin 32) (t : Fin 200) (i : Fin 64) (f : Fin 128) :
    broadcastInDim S32x200x64x128 ![0, 1, 2, 3] bcast_S32x200x64x1_S32x200x64x128_0_1_2_3 w (ix4 bb t i f)
      = w (ix4 bb t i 0) :=
  broadcastInDim_apply _ _ _ _ (ix4 bb t i 0) (fun a => match a with | ⟨0, _⟩ => rfl | ⟨1, _⟩ => rfl | ⟨2, _⟩ => rfl | ⟨3, _⟩ => rfl)

/-- The two patterns as reals: 0x43000000 denotes 128 and 0x42FE0000 denotes 127. -/
private theorem c128_eq : c128 = ((128 : ℝ) : EReal) := by
  simp [Ideal.ofBits, Ideal.ieee, -EReal.coe_mul]; norm_num
private theorem c127_eq : c127 = ((127 : ℝ) : EReal) := by
  simp [Ideal.ofBits, Ideal.ieee, -EReal.coe_mul]; norm_num

/-- jnp's variance helper read at (batch, time, row): where 128 less `ddof` is a positive `d`, the centred squares
    summed over `d` (the `where` takes its first branch). -/
theorem rVarFn_apply (x : FVec Ideal S32x200x64x128 .f32) (ddof : IVec S_ 32) (d : EReal)
    (hd : c128 - (((ddof ix0).toInt : ℝ) : EReal) = d) (hpos : 0 < d)
    (bb : Fin 32) (t : Fin 200) (i : Fin 64) (u : Fin 1) :
    rVarFn x ddof (ix4 bb t i u) = varOver d (fun i f => x (ix4 bb t i f)) i := by
  -- the divisor, a rank-0 value, is `d`; being positive, the comparison with zero gives the bit 1
  have hden : (subf (constant (F := Ideal) S_ .f32 0x43000000#32) (sitofp .f32 ddof) : FVec Ideal S_ .f32) ix0 = d := hd
  have hc : FloatOps.cmpf (F := Ideal) (φ := .f32) .ogt d 0 = 1#1 := by
    show Ideal.cmp .ogt d 0 = 1#1
    simp [Ideal.cmp, hpos]
  unfold rVarFn
  simp only [select_apply, hostDivf_apply]
  -- the condition, the summed squares, the divisor and the other branch, each read at the index
  rw [broadcastInDim_scalar_apply, rowSum_keep, broadcastInDim_scalar_apply, broadcastInDim_scalar_apply]
  rw [cmpf_apply, hden, constant_apply, Ideal.ofBits_zero_f32, hc, select_one]
  unfold varOver
  -- term by term: the entry less the row's mean, squared
  refine congrArg (fun s => Ideal.div s d) (Finset.sum_congr rfl fun f _ => ?_)
  rw [mulf_apply, subf_apply, spread_apply, hostDivf_apply, rowSum_keep, broadcastInDim_scalar_apply, constant_apply]
  rfl

/-- 128 less one is 127, as the patterns denote them; and 127 is positive. -/
theorem c128_sub_one : c128 - (((((constantI S_ 32 1#32 : IVec S_ 32) ix0).toInt : ℤ) : ℝ) : EReal) = c127 := by
  rw [c128_eq, c127_eq]
  have h1 : ((constantI S_ 32 1#32 : IVec S_ 32) ix0).toInt = 1 := by decide
  rw [h1, ← EReal.coe_sub]
  norm_num
theorem c127_pos : (0 : EReal) < c127 := by
  rw [c127_eq]; exact EReal.coe_pos.mpr (by norm_num)
/-- 128 less zero is 128; and 128 is positive. -/
theorem c128_sub_zero : c128 - (((((constantI S_ 32 0#32 : IVec S_ 32) ix0).toInt : ℤ) : ℝ) : EReal) = c128 := by
  have h0 : ((constantI S_ 32 0#32 : IVec S_ 32) ix0).toInt = 0 := by decide
  rw [h0]
  simp
theorem c128_pos : (0 : EReal) < c128 := by
  rw [c128_eq]; exact EReal.coe_pos.mpr (by norm_num)

end Cert.ReferenceIdeal.RefVar

end
-- ==== Proof.RefA.lean ====
import proofs.«182105_j65403761983862_1_alg».proof.Proof.Spec
import proofs.«182105_j65403761983862_1_alg».proof.Proof.RefTerm
import proofs.«182105_j65403761983862_1_alg».proof.Proof.RefVar
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.ReferenceIdeal.RefA

open Idealize.ShloMosaic Idealize.ShloMosaic.ValueIdx Cert.ReferenceIdeal Cert.ReferenceIdeal.Gen Cert.ReferenceIdeal.Terms Cert.ReferenceIdeal.RefVar Cert.GraphCorr

/-- The host's sum over the last axis, started from the zero pattern, read at (batch, time, row): the sum of the
    row's 128 entries. -/
private theorem rowSum_apply (x : FVec Ideal S32x200x64x128 .f32) (bb : Fin 32) (t : Fin 200) (i : Fin 64) :
    Host.reduceAdd (F := Ideal) x (constant (F := Ideal) S_ .f32 0x00000000#32)
        reducesTo_S32x200x64x128_S32x200x64_d3 h_S_ (ix3 bb t i)
      = ∑ f : Fin 128, x (ix4 bb t i f) := by
  refine (hostReduceAdd_apply x _ reducesTo_S32x200x64x128_S32x200x64_d3 h_S_ (ix3 bb t i)).trans ?_
  refine (Ideal.hostReduceAdd_single reducesTo_S32x200x64x128_S32x200x64_d3 (by decide) x _ (ix3 bb t i)).trans ?_
  rw [constant_apply, Ideal.ofBits_zero_f32, zero_add]
  refine Finset.sum_congr rfl fun f _ => congrArg x ?_
  funext a
  refine Fin.ext ?_
  match a with
  | ⟨0, _⟩ => rfl
  | ⟨1, _⟩ => rfl
  | ⟨2, _⟩ => rfl
  | ⟨3, _⟩ => rfl

/-- A per-row value given a trailing unit axis reads the row's value. -/
private theorem keep_apply {α : Type} (v : S32x200x64.Idx → α) (bb : Fin 32) (t : Fin 200) (i : Fin 64) (u : Fin 1) :
    broadcastInDim S32x200x64x1 ![0, 1, 2] bcast_S32x200x64_S32x200x64x1_0_1_2 v (ix4 bb t i u) = v (ix3 bb t i) :=
  broadcastInDim_apply _ _ v (ix4 bb t i u) (ix3 bb t i) fun a =>
    match a with
    | ⟨0, _⟩ => rfl
    | ⟨1, _⟩ => rfl
    | ⟨2, _⟩ => rfl

/-- A per-row column spread along the 128 features reads the row's value. -/
private theorem spread_apply {α : Type} (v : S32x200x64x1.Idx → α) (bb : Fin 32) (t : Fin 200) (i : Fin 64) (f : Fin 128) :
    broadcastInDim S32x200x64x128 ![0, 1, 2, 3] bcast_S32x200x64x1_S32x200x64x128_0_1_2_3 v (ix4 bb t i f)
      = v (ix4 bb t i 0) :=
  broadcastInDim_apply _ _ v (ix4 bb t i f) (ix4 bb t i 0) fun a =>
    match a with
    | ⟨0, _⟩ => rfl
    | ⟨1, _⟩ => rfl
    | ⟨2, _⟩ => rfl
    | ⟨3, _⟩ => rfl

/-- The host's square root at an index is the extended reals' one of the element. -/
private theorem hostSqrt_apply {s : Shape} {φ : FTy} (x : FVec Ideal s φ) (j : s.Idx) :
    Host.sqrt x j = Ideal.sqrt (x j) := rfl

/-- The reference's scaled rows, read at (batch, time, row, feature). -/
theorem rXn_apply (x : FVec Ideal S32x200x64x128 .f32) (bb : Fin 32) (t : Fin 200) (i : Fin 64) (f : Fin 128) :
    rXn x (ix4 bb t i f) = xnorm (fun i f => x (ix4 bb t i f)) i f := by
  unfold rXn
  -- the quotient and the centring are pointwise
  rw [hostDivf_apply, subf_apply]
  -- the row's mean and the row's divisor at the row; the mean as the row's sum over 128; the unbiased variance as the
  -- centred squares summed over 127, under the square root; the two patterns broadcast from rank 0
  rw [spread_apply, spread_apply, hostDivf_apply, keep_apply, rowSum_apply, addf_apply, hostSqrt_apply,
    rVarFn_apply x (constantI S_ 32 1#32) c127 c128_sub_one c127_pos,
    broadcastInDim_scalar_apply, broadcastInDim_scalar_apply, constant_apply, constant_apply]
  rfl

end Cert.ReferenceIdeal.RefA

end
-- ==== Proof.RefB.lean ====
import proofs.«182105_j65403761983862_1_alg».proof.Proof.Spec
import proofs.«182105_j65403761983862_1_alg».proof.Proof.RefTerm
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.ReferenceIdeal.RefB

open Idealize.ShloMosaic Idealize.ShloMosaic.ValueIdx Cert.ReferenceIdeal Cert.ReferenceIdeal.Gen Cert.ReferenceIdeal.Terms Cert.GraphCorr

/-! ### The three contractions at an index

Each of the three products contracts ONE axis, so its contraction index is one coordinate: the sum over the
contraction shape is re-indexed through that coordinate, and the two operand indices are then read off axis by
axis (a batch or kept axis reads the result index, the contracted axis reads the coordinate). -/

/-- Rows times rows within a window: the contracted axis is the feature axis of both operands. -/
private theorem dotRows_apply (u v : FVec Ideal S32x200x64x128 .f32) (bb : Fin 32) (t : Fin 200) (i j : Fin 64) :
    Host.dotGeneral (F := Ideal) dot_S32x200x64x128_S32x200x64x128_S32x200x64x64_3_3_2_2_01_01 none u v (ix4 bb t i j)
      = ∑ f : Fin 128, u (ix4 bb t i f) * v (ix4 bb t j f) := by
  show FloatOps.dotGeneral _ none _ u v (ix4 bb t i j) = _
  rw [Ideal.dotGeneral_apply]
  refine (Equiv.sum_comp (contrEquiv1 dot_S32x200x64x128_S32x200x64x128_S32x200x64x64_3_3_2_2_01_01 128 rfl rfl).symm _).symm.trans ?_
  refine Finset.sum_congr rfl fun f _ => ?_
  have hk := contrEquiv1_symm_val dot_S32x200x64x128_S32x200x64x128_S32x200x64x64_3_3_2_2_01_01 128 rfl rfl f
  have hl : dot_S32x200x64x128_S32x200x64x128_S32x200x64x64_3_3_2_2_01_01.lhsIdx (ix4 bb t i j)
      ((contrEquiv1 _ 128 rfl rfl).symm f) = ix4 bb t i f := by
    funext a; apply Fin.ext
    match a with
    | ⟨0, _⟩ => rfl
    | ⟨1, _⟩ => rfl
    | ⟨2, _⟩ => rfl
    | ⟨3, _⟩ => exact (DotDims.lhsIdx_val_of_single _ rfl _ _).trans hk
  have hr : dot_S32x200x64x128_S32x200x64x128_S32x200x64x64_3_3_2_2_01_01.rhsIdx (ix4 bb t i j)
      ((contrEquiv1 _ 128 rfl rfl).symm f) = ix4 bb t j f := by
    funext a; apply Fin.ext
    match a with
    | ⟨0, _⟩ => rfl
    | ⟨1, _⟩ => rfl
    | ⟨2, _⟩ => rfl
    | ⟨3, _⟩ => exact (DotDims.rhsIdx_val_of_single _ rfl _ _).trans hk
  rw [hl, hr]

/-- Rows times the transposed matrix: the rows' feature axis against the matrix's second axis; no batch axis. -/
private theorem dotMat_apply (x : FVec Ideal S32x200x64x128 .f32) (W : FVec Ideal S128x128 .f32)
    (bb : Fin 32) (t : Fin 200) (j : Fin 64) (o : Fin 128) :
    Host.dotGeneral (F := Ideal) dot_S32x200x64x128_S128x128_S32x200x64x128_3_1_012_0_n_n none x W (ix4 bb t j o)
      = ∑ f : Fin 128, x (ix4 bb t j f) * W (ix2 o f) := by
  show FloatOps.dotGeneral _ none _ x W (ix4 bb t j o) = _
  rw [Ideal.dotGeneral_apply]
  refine (Equiv.sum_comp (contrEquiv1 dot_S32x200x64x128_S128x128_S32x200x64x128_3_1_012_0_n_n 128 rfl rfl).symm _).symm.trans ?_
  refine Finset.sum_congr rfl fun f _ => ?_
  have hk := contrEquiv1_symm_val dot_S32x200x64x128_S128x128_S32x200x64x128_3_1_012_0_n_n 128 rfl rfl f
  have hl : dot_S32x200x64x128_S128x128_S32x200x64x128_3_1_012_0_n_n.lhsIdx (ix4 bb t j o)
      ((contrEquiv1 _ 128 rfl rfl).symm f) = ix4 bb t j f := by
    funext a; apply Fin.ext
    match a with
    | ⟨0, _⟩ => rfl
    | ⟨1, _⟩ => rfl
    | ⟨2, _⟩ => rfl
    | ⟨3, _⟩ => exact (DotDims.lhsIdx_val_of_single _ rfl _ _).trans hk
  have hr : dot_S32x200x64x128_S128x128_S32x200x64x128_3_1_012_0_n_n.rhsIdx (ix4 bb t j o)
      ((contrEquiv1 _ 128 rfl rfl).symm f) = ix2 o f := by
    funext a; apply Fin.ext
    match a with
    | ⟨0, _⟩ => rfl
    | ⟨1, _⟩ => exact (DotDims.rhsIdx_val_of_single _ rfl _ _).trans hk
  rw [hl, hr]

/-- Weights times mapped rows within a window: the weights' column axis against the rows' row axis. -/
private theorem dotAvg_apply (wg : FVec Ideal S32x200x64x64 .f32) (h : FVec Ideal S32x200x64x128 .f32)
    (bb : Fin 32) (t : Fin 200) (i : Fin 64) (o : Fin 128) :
    Host.dotGeneral (F := Ideal) dot_S32x200x64x64_S32x200x64x128_S32x200x64x128_3_2_2_3_01_01 none wg h (ix4 bb t i o)
      = ∑ j : Fin 64, wg (ix4 bb t i j) * h (ix4 bb t j o) := by
  show FloatOps.dotGeneral _ none _ wg h (ix4 bb t i o) = _
  rw [Ideal.dotGeneral_apply]
  refine (Equiv.sum_comp (contrEquiv1 dot_S32x200x64x64_S32x200x64x128_S32x200x64x128_3_2_2_3_01_01 64 rfl rfl).symm _).symm.trans ?_
  refine Finset.sum_congr rfl fun j _ => ?_
  have hk := contrEquiv1_symm_val dot_S32x200x64x64_S32x200x64x128_S32x200x64x128_3_2_2_3_01_01 64 rfl rfl j
  have hl : dot_S32x200x64x64_S32x200x64x128_S32x200x64x128_3_2_2_3_01_01.lhsIdx (ix4 bb t i o)
      ((contrEquiv1 _ 64 rfl rfl).symm j) = ix4 bb t i j := by
    funext a; apply Fin.ext
    match a with
    | ⟨0, _⟩ => rfl
    | ⟨1, _⟩ => rfl
    | ⟨2, _⟩ => rfl
    | ⟨3, _⟩ => exact (DotDims.lhsIdx_val_of_single _ rfl _ _).trans hk
  have hr : dot_S32x200x64x64_S32x200x64x128_S32x200x64x128_3_2_2_3_01_01.rhsIdx (ix4 bb t i o)
      ((contrEquiv1 _ 64 rfl rfl).symm j) = ix4 bb t j o := by
    funext a; apply Fin.ext
    match a with
    | ⟨0, _⟩ => rfl
    | ⟨1, _⟩ => rfl
    | ⟨2, _⟩ => exact (DotDims.rhsIdx_val_of_single _ rfl _ _).trans hk
    | ⟨3, _⟩ => rfl
  rw [hl, hr]

/-! ### Reductions along a window's last axis, and the broadcasts back -/

/-- A per-row value, given a unit last axis and then repeated along 64 columns, reads the row's value. -/
private theorem keep64_apply {α : Type} (r : S32x200x64.Idx → α) (bb : Fin 32) (t : Fin 200) (i j : Fin 64) :
    broadcastInDim S32x200x64x64 ![0, 1, 2, 3] bcast_S32x200x64x1_S32x200x64x64_0_1_2_3
        (broadcastInDim S32x200x64x1 ![0, 1, 2] bcast_S32x200x64_S32x200x64x1_0_1_2 r) (ix4 bb t i j)
      = r (ix3 bb t i) := by
  refine (broadcastInDim_apply _ _ _ (ix4 bb t i j) (ix4 bb t i (0 : Fin 1)) fun a => ?_).trans
    (broadcastInDim_apply _ _ _ (ix4 bb t i (0 : Fin 1)) (ix3 bb t i) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-- The largest entry of a row, started from the pattern of minus infinity and then compared with that pattern
    once more: the fold of `max` over the row's 64 entries from the pattern's value. The second comparison changes
    nothing, because a fold of `max` is never below the value it starts from, whatever that value is. -/
private theorem rowMax_apply (c : FVec Ideal S32x200x64x64 .f32) (bb : Fin 32) (t : Fin 200) (i : Fin 64) :
    maximumf (broadcastInDim S32x200x64 ![] bcast_S_S32x200x64 (constant (F := Ideal) S_ .f32 0xFF800000#32))
        (Host.reduce FloatOps.maximumf c (constant (F := Ideal) S_ .f32 0xFF800000#32)
          reducesTo_S32x200x64x64_S32x200x64_d3 h_S_) (ix3 bb t i)
      = (Finset.univ : Finset (Fin 64)).fold max ninf (fun j => c (ix4 bb t i j)) := by
  rw [maximumf_apply, broadcastInDim_scalar_apply,
    Host.reduce_eq_fold_single FloatOps.maximumf c _ reducesTo_S32x200x64x64_S32x200x64_d3 (by decide) h_S_ (ix3 bb t i)]
  have hf : (c ∘ (by decide : S32x200x64x64.Reduces [3] S32x200x64).lift (ix3 bb t i)) = fun j : Fin 64 => c (ix4 bb t i j) := by
    funext j
    refine congrArg c (funext fun a => Fin.ext ?_)
    match a with
    | ⟨0, _⟩ => rfl
    | ⟨1, _⟩ => rfl
    | ⟨2, _⟩ => rfl
    | ⟨3, _⟩ => rfl
  show max ninf ((Finset.univ : Finset (Fin 64)).fold max ninf (c ∘ (by decide : S32x200x64x64.Reduces [3] S32x200x64).lift (ix3 bb t i))) = _
  rw [hf]
  exact max_eq_right ((Finset.le_fold_max _).mpr (Or.inl le_rfl))

/-- The sum of a row's 64 entries, started from the pattern of zero. -/
private theorem rowSum_apply (e : FVec Ideal S32x200x64x64 .f32) (bb : Fin 32) (t : Fin 200) (i : Fin 64) :
    Host.reduceAdd e (constant (F := Ideal) S_ .f32 0x00000000#32) reducesTo_S32x200x64x64_S32x200x64_d3 h_S_ (ix3 bb t i)
      = ∑ j : Fin 64, e (ix4 bb t i j) := by
  rw [hostReduceAdd_apply, Ideal.hostReduceAdd_single reducesTo_S32x200x64x64_S32x200x64_d3 (by decide)]
  show Ideal.ofBits .f32 0x00000000#32 + _ = _
  rw [Ideal.ofBits_zero_f32, zero_add]
  refine Finset.sum_congr rfl fun j _ => congrArg e (funext fun a => Fin.ext ?_)
  match a with
  | ⟨0, _⟩ => rfl
  | ⟨1, _⟩ => rfl
  | ⟨2, _⟩ => rfl
  | ⟨3, _⟩ => rfl

/-- The host's exponential at an index. -/
private theorem hostExp_apply {s : Shape} (x : FVec Ideal s .f32) (k : s.Idx) : Host.exp x k = Ideal.exp (x k) := rfl

/-- A vector of 128 values, given three unit leading axes and then repeated over batch, time and row. -/
private theorem lane128_apply {α : Type} (b : S128.Idx → α) (bb : Fin 32) (t : Fin 200) (j : Fin 64) (o : Fin 128) :
    broadcastInDim S32x200x64x128 ![0, 1, 2, 3] bcast_S1x1x1x128_S32x200x64x128_0_1_2_3
        (broadcastInDim S1x1x1x128 ![3] bcast_S128_S1x1x1x128_3 b) (ix4 bb t j o)
      = b (ix1 o) := by
  refine (broadcastInDim_apply _ _ _ (ix4 bb t j o) (ix4 (0 : Fin 1) (0 : Fin 1) (0 : Fin 1) o) fun a => ?_).trans
    (broadcastInDim_apply _ _ _ (ix4 (0 : Fin 1) (0 : Fin 1) (0 : Fin 1) o) (ix1 o) fun a => ?_)
  · match a with
    | ⟨0, _⟩ => rfl
    | ⟨1, _⟩ => rfl
    | ⟨2, _⟩ => rfl
    | ⟨3, _⟩ => rfl
  · match a with
    | ⟨0, _⟩ => rfl

/-! ### The softmax of a row -/

/-- The reference's softmax along the last axis of any [32, 200, 64, 64] array `c`: at (batch, time, row `i`, column
    `j`) it is the exponential of the entry less the row's largest entry, over the sum of those exponentials along
    the row. -/
private theorem softmaxRow_apply (c : FVec Ideal S32x200x64x64 .f32) (bb : Fin 32) (t : Fin 200) (i j : Fin 64) :
    Host.divf
        (Host.exp (subf c
          (broadcastInDim S32x200x64x64 ![0, 1, 2, 3] bcast_S32x200x64x1_S32x200x64x64_0_1_2_3
            (broadcastInDim S32x200x64x1 ![0, 1, 2] bcast_S32x200x64_S32x200x64x1_0_1_2
              (maximumf (broadcastInDim S32x200x64 ![] bcast_S_S32x200x64 (constant (F := Ideal) S_ .f32 0xFF800000#32))
                (Host.reduce FloatOps.maximumf c (constant (F := Ideal) S_ .f32 0xFF800000#32)
                  reducesTo_S32x200x64x64_S32x200x64_d3 h_S_))))))
        (broadcastInDim S32x200x64x64 ![0, 1, 2, 3] bcast_S32x200x64x1_S32x200x64x64_0_1_2_3
          (broadcastInDim S32x200x64x1 ![0, 1, 2] bcast_S32x200x64_S32x200x64x1_0_1_2
            (Host.reduceAdd
              (Host.exp (subf c
                (broadcastInDim S32x200x64x64 ![0, 1, 2, 3] bcast_S32x200x64x1_S32x200x64x64_0_1_2_3
                  (broadcastInDim S32x200x64x1 ![0, 1, 2] bcast_S32x200x64_S32x200x64x1_0_1_2
                    (maximumf (broadcastInDim S32x200x64 ![] bcast_S_S32x200x64 (constant (F := Ideal) S_ .f32 0xFF800000#32))
                      (Host.reduce FloatOps.maximumf c (constant (F := Ideal) S_ .f32 0xFF800000#32)
                        reducesTo_S32x200x64x64_S32x200x64_d3 h_S_))))))
              (constant (F := Ideal) S_ .f32 0x00000000#32) reducesTo_S32x200x64x64_S32x200x64_d3 h_S_)))
        (ix4 bb t i j)
      = Ideal.div
          (Ideal.exp (c (ix4 bb t i j) - (Finset.univ : Finset (Fin 64)).fold max ninf (fun j' => c (ix4 bb t i j'))))
          (∑ k : Fin 64,
            Ideal.exp (c (ix4 bb t i k) - (Finset.univ : Finset (Fin 64)).fold max ninf (fun j' => c (ix4 bb t i j')))) := by
  have hnum : ∀ k : Fin 64,
      Host.exp (subf c
          (broadcastInDim S32x200x64x64 ![0, 1, 2, 3] bcast_S32x200x64x1_S32x200x64x64_0_1_2_3
            (broadcastInDim S32x200x64x1 ![0, 1, 2] bcast_S32x200x64_S32x200x64x1_0_1_2
              (maximumf (broadcastInDim S32x200x64 ![] bcast_S_S32x200x64 (constant (F := Ideal) S_ .f32 0xFF800000#32))
                (Host.reduce FloatOps.maximumf c (constant (F := Ideal) S_ .f32 0xFF800000#32)
                  reducesTo_S32x200x64x64_S32x200x64_d3 h_S_))))) (ix4 bb t i k)
        = Ideal.exp (c (ix4 bb t i k) - (Finset.univ : Finset (Fin 64)).fold max ninf (fun j' => c (ix4 bb t i j'))) := by
    intro k
    rw [hostExp_apply, subf_apply, keep64_apply, rowMax_apply]
  rw [hostDivf_apply, keep64_apply, rowSum_apply, hnum]
  exact congrArg _ (Finset.sum_congr rfl fun k _ => hnum k)

/-- The reference's softmax weights, read at (batch, time, row, row). -/
theorem rWgt_apply (xn : FVec Ideal S32x200x64x128 .f32) (bb : Fin 32) (t : Fin 200) (i j : Fin 64) :
    rWgt xn (ix4 bb t i j) = wgt (fun i f => xn (ix4 bb t i f)) i j := by
  unfold rWgt
  refine (softmaxRow_apply _ bb t i j).trans ?_
  have hc : ∀ a b : Fin 64,
      Host.divf (Host.dotGeneral (F := Ideal) dot_S32x200x64x128_S32x200x64x128_S32x200x64x64_3_3_2_2_01_01 none xn xn)
          (broadcastInDim S32x200x64x64 ![] bcast_S_S32x200x64x64 (constant (F := Ideal) S_ .f32 0x43000000#32)) (ix4 bb t a b)
        = corr (fun i f => xn (ix4 bb t i f)) a b := by
    intro a b
    rw [hostDivf_apply, dotRows_apply, broadcastInDim_scalar_apply]
    rfl
  unfold wgt cexp cmax
  simp only [hc]

/-- The reference's affine map, read at (batch, time, row, output feature). -/
theorem rLin_apply (x : FVec Ideal S32x200x64x128 .f32) (W : FVec Ideal S128x128 .f32) (b : FVec Ideal S128 .f32)
    (bb : Fin 32) (t : Fin 200) (j : Fin 64) (o : Fin 128) :
    rLin x W b (ix4 bb t j o)
      = lin (fun i f => x (ix4 bb t i f)) (fun o f => W (ix2 o f)) (fun o => b (ix1 o)) j o := by
  unfold rLin
  rw [addf_apply, dotMat_apply, lane128_apply]
  rfl

/-- The reference's weighted average, read at (batch, time, row, output feature). -/
theorem rAgg_apply (wg : FVec Ideal S32x200x64x64 .f32) (h : FVec Ideal S32x200x64x128 .f32)
    (bb : Fin 32) (t : Fin 200) (i : Fin 64) (o : Fin 128) :
    rAgg wg h (ix4 bb t i o) = agg (fun i j => wg (ix4 bb t i j)) (fun j o => h (ix4 bb t j o)) i o := by
  unfold rAgg
  rw [dotAvg_apply]
  rfl

end Cert.ReferenceIdeal.RefB

end
-- ==== Proof.RefC.lean ====
import proofs.«182105_j65403761983862_1_alg».proof.Proof.Spec
import proofs.«182105_j65403761983862_1_alg».proof.Proof.RefTerm
import proofs.«182105_j65403761983862_1_alg».proof.Proof.RefVar
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.ReferenceIdeal.RefC

open Idealize.ShloMosaic Idealize.ShloMosaic.ValueIdx Cert.ReferenceIdeal Cert.ReferenceIdeal.Gen Cert.ReferenceIdeal.Terms Cert.ReferenceIdeal.RefVar Cert.GraphCorr

/-- The host's sum over the last axis, started from the zero pattern, read at (batch, time, row): the sum of the
    row's 128 entries. -/
private theorem rowSum_apply (x : FVec Ideal S32x200x64x128 .f32) (bb : Fin 32) (t : Fin 200) (i : Fin 64) :
    Host.reduceAdd (F := Ideal) x (constant (F := Ideal) S_ .f32 0x00000000#32)
        reducesTo_S32x200x64x128_S32x200x64_d3 h_S_ (ix3 bb t i)
      = ∑ f : Fin 128, x (ix4 bb t i f) := by
  refine (hostReduceAdd_apply x _ reducesTo_S32x200x64x128_S32x200x64_d3 h_S_ (ix3 bb t i)).trans ?_
  refine (Ideal.hostReduceAdd_single reducesTo_S32x200x64x128_S32x200x64_d3 (by decide) x _ (ix3 bb t i)).trans ?_
  rw [constant_apply, Ideal.ofBits_zero_f32, zero_add]
  refine Finset.sum_congr rfl fun f _ => congrArg x ?_
  funext a
  refine Fin.ext ?_
  match a with
  | ⟨0, _⟩ => rfl
  | ⟨1, _⟩ => rfl
  | ⟨2, _⟩ => rfl
  | ⟨3, _⟩ => rfl

/-- A per-row value given a trailing unit axis reads the row's value. -/
private theorem keep_apply {α : Type} (v : S32x200x64.Idx → α) (bb : Fin 32) (t : Fin 200) (i : Fin 64) (u : Fin 1) :
    broadcastInDim S32x200x64x1 ![0, 1, 2] bcast_S32x200x64_S32x200x64x1_0_1_2 v (ix4 bb t i u) = v (ix3 bb t i) :=
  broadcastInDim_apply _ _ v (ix4 bb t i u) (ix3 bb t i) fun a =>
    match a with
    | ⟨0, _⟩ => rfl
    | ⟨1, _⟩ => rfl
    | ⟨2, _⟩ => rfl

/-- A per-row column spread along the 128 features reads the row's value. -/
private theorem spread_apply {α : Type} (v : S32x200x64x1.Idx → α) (bb : Fin 32) (t : Fin 200) (i : Fin 64) (o : Fin 128) :
    broadcastInDim S32x200x64x128 ![0, 1, 2, 3] bcast_S32x200x64x1_S32x200x64x128_0_1_2_3 v (ix4 bb t i o)
      = v (ix4 bb t i 0) :=
  broadcastInDim_apply _ _ v (ix4 bb t i o) (ix4 bb t i 0) fun a =>
    match a with
    | ⟨0, _⟩ => rfl
    | ⟨1, _⟩ => rfl
    | ⟨2, _⟩ => rfl
    | ⟨3, _⟩ => rfl

/-- A per-feature vector given three leading unit axes and spread over every row reads the feature's value. -/
private theorem feat_apply {α : Type} (v : S128.Idx → α) (bb : Fin 32) (t : Fin 200) (i : Fin 64) (o : Fin 128) :
    broadcastInDim S32x200x64x128 ![0, 1, 2, 3] bcast_S1x1x1x128_S32x200x64x128_0_1_2_3
        (broadcastInDim S1x1x1x128 ![3] bcast_S128_S1x1x1x128_3 v) (ix4 bb t i o)
      = v (ix1 o) := by
  refine (broadcastInDim_apply _ _ _ (ix4 bb t i o) (ix4 0 0 0 o) fun a =>
    match a with
    | ⟨0, _⟩ => rfl
    | ⟨1, _⟩ => rfl
    | ⟨2, _⟩ => rfl
    | ⟨3, _⟩ => rfl).trans ?_
  exact broadcastInDim_apply _ _ v (ix4 0 0 0 o) (ix1 o) fun a =>
    match a with
    | ⟨0, _⟩ => rfl

/-- The host's inverse square root at an index is the extended reals' one of the element. -/
private theorem hostRsqrt_apply {s : Shape} {φ : FTy} (x : FVec Ideal s φ) (j : s.Idx) :
    Host.rsqrt x j = Ideal.rsqrt (x j) := rfl

/-- The reference's layer norm with its clamp, read at (batch, time, row, output feature). -/
theorem rLN_apply (a : FVec Ideal S32x200x64x128 .f32) (g be : FVec Ideal S128 .f32)
    (bb : Fin 32) (t : Fin 200) (i : Fin 64) (o : Fin 128) :
    rLN a g be (ix4 bb t i o)
      = lnOut (fun i o => a (ix4 bb t i o)) (fun o => g (ix1 o)) (fun o => be (ix1 o)) i o := by
  unfold rLN
  -- the pointwise operations, outermost first: the clamp, the shift, the scale, the product, the centring
  simp only [maximumf_apply, addf_apply, mulf_apply, subf_apply]
  -- gamma and beta at the feature; the row's mean and inverse deviation at the row; the mean as the row's sum over
  -- 128; the biased variance as the centred squares summed over 128; the three patterns broadcast from rank 0
  rw [feat_apply, feat_apply, spread_apply, spread_apply, hostDivf_apply, keep_apply, rowSum_apply,
    hostRsqrt_apply, addf_apply, rVarFn_apply a (constantI S_ 32 0#32) c128 c128_sub_zero c128_pos,
    broadcastInDim_scalar_apply, broadcastInDim_scalar_apply, broadcastInDim_scalar_apply,
    constant_apply, constant_apply, constant_apply]
  rfl

end Cert.ReferenceIdeal.RefC

end
-- ==== Proof.RefValue.lean ====
/-
  The reference's result is `resultArr` of its arguments: its five stretches, each read at an index, composed.
-/
import proofs.«182105_j65403761983862_1_alg».proof.Proof.SpecOut
import proofs.«182105_j65403761983862_1_alg».proof.Proof.RefA
import proofs.«182105_j65403761983862_1_alg».proof.Proof.RefB
import proofs.«182105_j65403761983862_1_alg».proof.Proof.RefC

noncomputable section

namespace Cert.ReferenceIdeal.RefValue

open Idealize.ShloMosaic Idealize.ShloMosaic.ValueIdx Cert.ReferenceIdeal Cert.ReferenceIdeal.Gen Cert.ReferenceIdeal.Terms Cert.GraphCorr
open Cert.ReferenceIdeal.RefA Cert.ReferenceIdeal.RefB Cert.ReferenceIdeal.RefC

/-- At every index the reference's composed operations are the window function of that index's window. -/
theorem refOut_eq (x : FVec Ideal S32x200x64x128 .f32) (W : FVec Ideal S128x128 .f32) (b g be : FVec Ideal S128 .f32) :
    refOut x W b g be = resultArr x W b g be := by
  funext j
  obtain ⟨bb, t, r, o, rfl⟩ : ∃ (bb : Fin 32) (t : Fin 200) (r : Fin 64) (o : Fin 128), j = ix4 bb t r o :=
    ⟨j 0, j 1, j 2, j 3, eq_ix4 j⟩
  rw [resultArr_apply]
  unfold refOut
  rw [rLN_apply]
  unfold res
  simp only [rAgg_apply, rWgt_apply, rXn_apply, rLin_apply]

end Cert.ReferenceIdeal.RefValue

end
-- ==== Proof.lean ====
/-
  The certificate of a graph-correlation layer: windows of 64 nodes with 128 features, each window's rows centred
  and scaled by their unbiased standard deviation, the softmax of the rows' correlations averaging the rows' images
  under an affine map, then a layer norm with scale, shift and a clamp at zero.

  The kernel handles 128 windows per grid point on the array flattened to 6400 windows, with W transposed on the
  host before the call and the result reshaped after it; the reference does the same arithmetic with jnp on the
  whole [32, 200, 64, 128] array. At the ideal instance both end at ONE function of the five arguments
  (`Cert.GraphCorr.resultArr`): operation by operation the two programs compute the same extended reals, window by
  window; only the layouts differ (the flattening, the blocks, the transposed matrix), and three constants the
  reference computes where the kernel spells them (128 − 1 = 127, 128 − 0 = 128, and a maximum started from the
  value it is then compared with once more). No law of arithmetic that needs finite values is used, so the
  precondition is never opened.

  The frames of the kernel and its idealization are the generated ones; the reference's frame is its run with the
  result dropped; the idealization rewrote nothing, so `preserves` is trivial.
-/
import proofs.«182105_j65403761983862_1_alg».proof.Defs
import proofs.«182105_j65403761983862_1_alg».proof.Proof.Gen.Kernel
import proofs.«182105_j65403761983862_1_alg».proof.Proof.Gen.Kernel.Frame
import proofs.«182105_j65403761983862_1_alg».proof.Proof.Gen.KernelIdeal
import proofs.«182105_j65403761983862_1_alg».proof.Proof.Gen.KernelIdeal.Frame
import proofs.«182105_j65403761983862_1_alg».proof.Proof.Gen.ReferenceIdeal
import proofs.«182105_j65403761983862_1_alg».proof.Proof.Gen.Pre_finite_inputs
import proofs.«182105_j65403761983862_1_alg».proof.Proof.KerValue
import proofs.«182105_j65403761983862_1_alg».proof.Proof.RefRun
import proofs.«182105_j65403761983862_1_alg».proof.Proof.RefValue

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both idealized programs end at `resultArr` of arguments that agree. -/
theorem algebraic : Cert.algebraic_KernelIdeal_ReferenceIdeal := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2]
  exact Cert.ReferenceIdeal.RefValue.refOut_eq _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
